-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg12 : FVec F S10x64 .f32) (main_arg13 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S10x64 .f32 := Host.absf main_arg12
  let main_cst_20 : FVec F S_ .f32 := constant S_ .f32 0x7F800000#32
  let main_v55 : FVec F S10x64 .f32 := broadcastInDim S10x64 ![] bcast_S_S10x64 main_cst_20
  let main_v56 : IVec S10x64 1 := cmpf .olt main_v54 main_v55
  let main_c_21 : IVec S_ 1 := constantI S_ 1 1#1
  let main_v57 : IVec S_ 1 := (fun x v => Host.reduce IntOp.andi x v reducesTo_S10x64_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg8 : FVec F S128x256 .f32) (main_arg9 : FVec F S128 .f32) (main_arg10 : FVec F S64x128 .f32) (main_arg11 : FVec F S64 .f32) (main_arg12 : FVec F S10x64 .f32) (main_arg13 : FVec F S10 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S256x256 .f32) (main_arg6 : FVec F S256 .f32) (main_arg7 : FVec F S256x256 .f32) (main_arg8 : FVec F S128x256 .f32) (main_arg9 : FVec F S128 .f32) (main_arg10 : FVec F S64x128 .f32) (main_arg11 : FVec F S64 .f32) (main_arg12 : FVec F S10x64 .f32) (main_arg13 : FVec F S10 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S128x256 .f32) (main_arg9 : FVec F S128 .f32) (main_arg10 : FVec F S64x128 .f32) (main_arg11 : FVec F S64 .f32) (main_arg12 : FVec F S10x64 .f32) (main_arg13 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S800000x256 : Shape := ⟨2, ![800000, 256]⟩
abbrev S128x64 : Shape := ⟨2, ![128, 64]⟩
abbrev S64x10 : Shape := ⟨2, ![64, 10]⟩
abbrev S1x128 : Shape := ⟨2, ![1, 128]⟩
abbrev S1x64 : Shape := ⟨2, ![1, 64]⟩
abbrev S1x10 : Shape := ⟨2, ![1, 10]⟩
abbrev S50000x10 : Shape := ⟨2, ![50000, 10]⟩
abbrev S2000x10 : Shape := ⟨2, ![2000, 10]⟩
abbrev S2000x64 : Shape := ⟨2, ![2000, 64]⟩

abbrev nBuf : Space → Nat
  | .hbm => 66
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S10x64, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S50000x1, .f32⟩
  | .hbm, ⟨25, _⟩ => ⟨S128x256, .f32⟩
  | .hbm, ⟨26, _⟩ => ⟨S128x256, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x256, .f32⟩
  | .hbm, ⟨41, _⟩ => ⟨S50000x256, .f32⟩
  | .hbm, ⟨42, _⟩ => ⟨S256x256, .f32⟩
  | .hbm, ⟨43, _⟩ => ⟨S256x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S256x128, .f32⟩
  | .hbm, ⟨60, _⟩ => ⟨S128x64, .f32⟩
  | .hbm, ⟨61, _⟩ => ⟨S64x10, .f32⟩
  | .hbm, ⟨62, _⟩ => ⟨S1x128, .f32⟩
  | .hbm, ⟨63, _⟩ => ⟨S1x64, .f32⟩
  | .hbm, ⟨64, _⟩ => ⟨S1x10, .f32⟩
  | .hbm, ⟨65, _⟩ => ⟨S50000x10, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x1, .f32⟩
  | .local _ .vmem, ⟨14, _⟩ => ⟨S2000x1, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x128, .f32⟩
  | .local _ .vmem, ⟨25, _⟩ => ⟨S1x128, .f32⟩
  | .local _ .vmem, ⟨26, _⟩ => ⟨S128x64, .f32⟩
  | .local _ .vmem, ⟨27, _⟩ => ⟨S1x64, .f32⟩
  | .local _ .vmem, ⟨28, _⟩ => ⟨S64x10, .f32⟩
  | .local _ .vmem, ⟨29, _⟩ => ⟨S1x10, .f32⟩
  | .local _ .vmem, ⟨30, _⟩ => ⟨S2000x10, .f32⟩
  | .local _ .vmem, ⟨31, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x10 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S256x128_S128x256_1_0 : S256x128.Transposes [1, 0] S128x256
  bcast_S_S50000x128 : S_.BroadcastsInDim S50000x128 (![] : Fin 0 → Fin S50000x128.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  transposes_S256x256_S256x256_1_0 : S256x256.Transposes [1, 0] S256x256
  bcast_S_S50000x256 : S_.BroadcastsInDim S50000x256 (![] : Fin 0 → Fin S50000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S128x256_S256x128_1_0 : S128x256.Transposes [1, 0] S256x128
  transposes_S64x128_S128x64_1_0 : S64x128.Transposes [1, 0] S128x64
  transposes_S10x64_S64x10_1_0 : S10x64.Transposes [1, 0] S64x10
  shapeCasts_S128_S1x128 : S128.ShapeCasts S1x128
  shapeCasts_S64_S1x64 : S64.ShapeCasts S1x64
  shapeCasts_S10_S1x10 : S10.ShapeCasts S1x10
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x10.size a ≤ S64x10.size a
  hwx2_5 : ∀ i : grid2.Coords, EltTy.bits .f32 = 32 ∨ (Rect.block (s := S64x10) S64x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x10.size a ≤ S50000x10.size a
  hwx2_7 : ∀ i : grid2.Coords, EltTy.bits .f32 = 32 ∨ (Rect.block (s := S50000x10) S2000x10.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_v20) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S64x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S2000x10.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S64x10 : Shape := ⟨2, ![64, 10]⟩
abbrev S50000x10 : Shape := ⟨2, ![50000, 10]⟩
abbrev S1x10 : Shape := ⟨2, ![1, 10]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S10x64, .f32⟩
  | .hbm, ⟨13, _⟩ => ⟨S10, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S128x256, .f32⟩
  | .hbm, ⟨44, _⟩ => ⟨S50000x256, .f32⟩
  | .hbm, ⟨45, _⟩ => ⟨S1x256, .f32⟩
  | .hbm, ⟨46, _⟩ => ⟨S50000x256, .f32⟩
  | .hbm, ⟨47, _⟩ => ⟨S50000x256, .f32⟩
  | .hbm, ⟨48, _⟩ => ⟨S128x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S_, .f32⟩
  | .hbm, ⟨64, _⟩ => ⟨S50000x256, .f32⟩
  | .hbm, ⟨65, _⟩ => ⟨S800000x1, .i32⟩
  | .hbm, ⟨66, _⟩ => ⟨S50000x256, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x256, .f32⟩
  | .hbm, ⟨78, _⟩ => ⟨S50000x256, .f32⟩
  | .hbm, ⟨79, _⟩ => ⟨S256x256, .f32⟩
  | .hbm, ⟨80, _⟩ => ⟨S50000x256, .f32⟩
  | .hbm, ⟨81, _⟩ => ⟨S1x256, .f32⟩
  | .hbm, ⟨82, _⟩ => ⟨S50000x256, .f32⟩
  | .hbm, ⟨83, _⟩ => ⟨S50000x256, .f32⟩
  | .hbm, ⟨84, _⟩ => ⟨S256x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000x256, .f32⟩
  | .hbm, ⟨89, _⟩ => ⟨S50000x256, .f32⟩
  | .hbm, ⟨90, _⟩ => ⟨S256x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S128x64, .f32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S50000x64, .f32⟩
  | .hbm, ⟨103, _⟩ => ⟨S_, .f32⟩
  | .hbm, ⟨104, _⟩ => ⟨S50000x64, .f32⟩
  | .hbm, ⟨105, _⟩ => ⟨S50000x64, .f32⟩
  | .hbm, ⟨106, _⟩ => ⟨S64x10, .f32⟩
  | .hbm, ⟨107, _⟩ => ⟨S50000x10, .f32⟩
  | .hbm, ⟨108, _⟩ => ⟨S1x10, .f32⟩
  | .hbm, ⟨109, _⟩ => ⟨S50000x10, .f32⟩
  | .hbm, ⟨110, _⟩ => ⟨S50000x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call3_cst : Ref sig .tc := ⟨.hbm, 103, rfl⟩
abbrev main_call3_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S10x64_S64x10_1_0 : S10x64.Transposes [1, 0] S64x10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x10_S50000x10_1_0_0_1_n_n_wf : DotDims.WF S50000x64 S64x10 S50000x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.Spec.lean ====
/-
  The two per-node stages of the network, one output entry at a time, on the extended reals. Every stage works row by
  row: entry `(p, q)` of its output depends on row `p` of the node-indexed operands only, so each is stated as a
  function of that ROW and of the weights and biases as plain functions of their coordinates, whatever layout an
  implementation keeps them in; the whole-array forms read rows, weights (stored output-major, `W[q, k]`) and biases off
  the arrays.

  One graph-convolution layer: the row of aggregated neighbour features is divided by the node's degree clamped below
  at one, the mean row and the node's own row are each multiplied with a weight matrix, the bias is added and the sum
  clamped below at zero:
      out[q] = max ( Σ_k (agg[k] / max(cnt, 1)) · Wl[k,q]  +  Σ_k x[k] · Wr[k,q]  +  b[q] , 0 ).
  The decoder: three affine maps 256 → 128 → 64 → 10, the first two followed by the clamp at zero.
-/
import Idealize.ShloMosaic.PureOps.Ideal
import Idealize.ShloMosaic.Lib.ValueIdx

noncomputable section

namespace Cert.Spec

open Idealize.ShloMosaic Idealize.ShloMosaic.ValueIdx

/-- The float word of `1.0`, the lower clamp of a degree. -/
abbrev one32 : EReal := Ideal.ofBits .f32 0x3F800000#32
/-- The float word of `0.0`, the lower clamp of an activation. -/
abbrev zero32 : EReal := Ideal.ofBits .f32 0x00000000#32

/-- One output entry of a graph-convolution layer with `K` input features, from the node's aggregated row, its
    degree and its own row. -/
def sageRow (K : ℕ) (agg : Fin K → EReal) (cnt : EReal) (x : Fin K → EReal)
    (Wl Wr : Fin K → Fin 256 → EReal) (b : Fin 256 → EReal) (q : Fin 256) : EReal :=
  max (((∑ k : Fin K, Ideal.div (agg k) (max cnt one32) * Wl k q) + ∑ k : Fin K, x k * Wr k q) + b q) zero32

/-- The row function depends on its operands only through their values. -/
theorem sageRow_congr {K : ℕ} {agg agg' : Fin K → EReal} {cnt cnt' : EReal} {x x' : Fin K → EReal}
    {Wl Wl' Wr Wr' : Fin K → Fin 256 → EReal} {b b' : Fin 256 → EReal} (hagg : agg = agg') (hcnt : cnt = cnt') (hx : x = x')
    (hl : Wl = Wl') (hr : Wr = Wr') (hb : b = b') (q : Fin 256) :
    sageRow K agg cnt x Wl Wr b q = sageRow K agg' cnt' x' Wl' Wr' b' q := by
  subst hagg hcnt hx hl hr hb; rfl

/-- One affine map of a row: `Σ_k h[k] · W[k,q] + b[q]`. -/
def affRow {A B : ℕ} (h : Fin A → EReal) (W : Fin A → Fin B → EReal) (b : Fin B → EReal) (q : Fin B) : EReal :=
  (∑ k : Fin A, h k * W k q) + b q

/-- One output entry of the decoder from a node's row of 256 features. -/
def decRow (h : Fin 256 → EReal) (W1 : Fin 256 → Fin 128 → EReal) (b1 : Fin 128 → EReal)
    (W2 : Fin 128 → Fin 64 → EReal) (b2 : Fin 64 → EReal) (W3 : Fin 64 → Fin 10 → EReal) (b3 : Fin 10 → EReal)
    (q : Fin 10) : EReal :=
  affRow (fun j : Fin 64 => max (affRow (fun j' : Fin 128 => max (affRow h W1 b1 j') zero32) W2 b2 j) zero32) W3 b3 q

/-- The decoder's row function depends on its operands only through their values. -/
theorem decRow_congr {h h' : Fin 256 → EReal} {W1 W1' : Fin 256 → Fin 128 → EReal} {b1 b1' : Fin 128 → EReal}
    {W2 W2' : Fin 128 → Fin 64 → EReal} {b2 b2' : Fin 64 → EReal} {W3 W3' : Fin 64 → Fin 10 → EReal} {b3 b3' : Fin 10 → EReal}
    (hh : h = h') (h1 : W1 = W1') (hb1 : b1 = b1') (h2 : W2 = W2') (hb2 : b2 = b2') (h3 : W3 = W3') (hb3 : b3 = b3') (q : Fin 10) :
    decRow h W1 b1 W2 b2 W3 b3 q = decRow h' W1' b1' W2' b2' W3' b3' q := by
  subst hh h1 hb1 h2 hb2 h3 hb3; rfl

/-- A layer's whole output array from the arrays as the network's caller holds them: aggregated features and own
    features `[50000, K]`, degrees `[50000]`, weights `[256, K]` (output-major), bias `[256]`. -/
def sageOf (K : ℕ) (agg : (⟨2, ![50000, K]⟩ : Shape).Idx → EReal) (cnt : (⟨1, ![50000]⟩ : Shape).Idx → EReal)
    (x : (⟨2, ![50000, K]⟩ : Shape).Idx → EReal) (Wl Wr : (⟨2, ![256, K]⟩ : Shape).Idx → EReal)
    (b : (⟨1, ![256]⟩ : Shape).Idx → EReal) : (⟨2, ![50000, 256]⟩ : Shape).Idx → EReal :=
  fun i => sageRow K (fun k => agg (ix2 (i 0) k)) (cnt (ix1 (i 0))) (fun k => x (ix2 (i 0) k))
    (fun k q => Wl (ix2 q k)) (fun k q => Wr (ix2 q k)) (fun q => b (ix1 q)) (i 1)

/-- The decoder's whole output array from the arrays as the caller holds them (weights output-major). -/
def decOf (h : (⟨2, ![50000, 256]⟩ : Shape).Idx → EReal)
    (W1 : (⟨2, ![128, 256]⟩ : Shape).Idx → EReal) (b1 : (⟨1, ![128]⟩ : Shape).Idx → EReal)
    (W2 : (⟨2, ![64, 128]⟩ : Shape).Idx → EReal) (b2 : (⟨1, ![64]⟩ : Shape).Idx → EReal)
    (W3 : (⟨2, ![10, 64]⟩ : Shape).Idx → EReal) (b3 : (⟨1, ![10]⟩ : Shape).Idx → EReal) :
    (⟨2, ![50000, 10]⟩ : Shape).Idx → EReal :=
  fun i => decRow (fun k => h (ix2 (i 0) k)) (fun k q => W1 (ix2 q k)) (fun q => b1 (ix1 q))
    (fun k q => W2 (ix2 q k)) (fun q => b2 (ix1 q)) (fun k q => W3 (ix2 q k)) (fun q => b3 (ix1 q)) (i 1)

end Cert.Spec

end
-- ==== Proof.RefVal.lean ====
/-
  The reference program's stages, read as the network's stage functions. Each graph-convolution layer of the reference
  divides the aggregated features by the clamped degree, multiplies by the transposed weights, adds the bias, adds the
  product of the node features with the other transposed weights, and clamps at zero: at `(r, q)` that is the layer's row
  function of row `r`, with the bias added before the second product instead of after it (addition of extended reals is
  commutative and associative, so the order does not matter). The decoder is three affine maps with the clamp after the
  first two. The second layer's aggregation is the same scatter-add of gathered rows as the first's, applied to the first
  layer's output, and the second degree count is the first one computed again.
-/
import proofs.«120245_j26336739459481_1_alg».proof.Proof.Gen.ReferenceIdeal.Read
import proofs.«120245_j26336739459481_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Cert.ReferenceIdeal Cert.ReferenceIdeal.Read

section Generic
variable {F : FTy → Type} [FloatOps F]

/-- The second layer's aggregation as a function of the features it gathers: rows of `h` gathered at the (wrapped) source
    nodes and summed into the destination nodes' rows. -/
def agg2 (h : (⟨S50000x256, .f32⟩ : BufTy).Contents (Elt F)) (x1 : (⟨S2x800000, .i32⟩ : BufTy).Contents (Elt F)) : (⟨S50000x256, .f32⟩ : BufTy).Contents (Elt F) :=
  Host.scatterAdd scatter_S50000x256_S800000x1_S800000x256_1_0_0_1 (val_main_v39 (F := F)) (val_main_v40 (F := F) x1)
    (Host.gather gather_S50000x256_S800000x1_S800000x256_1_0_n_n_0_1_1256 h (val_main_v37 (F := F) x1))

/-- The reference's second aggregation is `agg2` of its first layer's output. -/
theorem v41_eq (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S256x128, .f32⟩ : BufTy).Contents (Elt F)) :
    val_main_v41 (F := F) x0 x1 x2 x3 x4 = agg2 (val_main_v31 (F := F) x0 x1 x2 x3 x4) x1 := rfl

/-- The degree count the second layer computes is the first layer's. -/
theorem v45_eq (x1 : (⟨S2x800000, .i32⟩ : BufTy).Contents (Elt F)) : val_main_v45 (F := F) x1 = val_main_v17 (F := F) x1 := rfl

end Generic

/-! ## The stages at one entry -/

section Stages
variable (x0 : (⟨S50000x128, .f32⟩ : BufTy).Contents (Elt Ideal)) (x1 : (⟨S2x800000, .i32⟩ : BufTy).Contents (Elt Ideal))
  (x2 : (⟨S256x128, .f32⟩ : BufTy).Contents (Elt Ideal)) (x3 : (⟨S256, .f32⟩ : BufTy).Contents (Elt Ideal)) (x4 : (⟨S256x128, .f32⟩ : BufTy).Contents (Elt Ideal))
  (x5 : (⟨S256x256, .f32⟩ : BufTy).Contents (Elt Ideal)) (x6 : (⟨S256, .f32⟩ : BufTy).Contents (Elt Ideal)) (x7 : (⟨S256x256, .f32⟩ : BufTy).Contents (Elt Ideal))
  (x8 : (⟨S128x256, .f32⟩ : BufTy).Contents (Elt Ideal)) (x9 : (⟨S128, .f32⟩ : BufTy).Contents (Elt Ideal)) (x10 : (⟨S64x128, .f32⟩ : BufTy).Contents (Elt Ideal))
  (x11 : (⟨S64, .f32⟩ : BufTy).Contents (Elt Ideal)) (x12 : (⟨S10x64, .f32⟩ : BufTy).Contents (Elt Ideal)) (x13 : (⟨S10, .f32⟩ : BufTy).Contents (Elt Ideal))

/-! ### The first layer -/

/-- The clamped degree spread along a node's row: at `(p, k)` it is the degree of node `p` clamped below at one. -/
theorem cnt1_apply (p : Fin 50000) (k : Fin 128) :
    val_main_v21 (F := Ideal) x1 (ix2 p k) = max (val_main_v17 (F := Ideal) x1 (ix1 p)) Cert.Spec.one32 := by
  have e : idx_main_v20 (idx_main_v21 (ix2 p k)) = ix1 p := funext fun a => Fin.ext (by match a with | ⟨0, _⟩ => rfl)
  rw [val_main_v21_apply, val_main_v20_apply, val_main_v19_apply, val_main_v18_apply, val_main_cst_3_apply, e]
  rfl

/-- The mean of the neighbours' features: the aggregated entry `(p, k)` divided by the clamped degree of node `p`. -/
theorem mean1_apply (p : Fin 50000) (k : Fin 128) :
    val_main_v22 (F := Ideal) x0 x1 (ix2 p k)
      = Ideal.div (val_main_v13 (F := Ideal) x0 x1 (ix2 p k)) (max (val_main_v17 (F := Ideal) x1 (ix1 p)) Cert.Spec.one32) := by
  rw [val_main_v22_apply, cnt1_apply x1 p k]
  rfl

/-- The first product of the first layer: entry `(p, q)` is the sum over `k` of the mean row's entry `k` times the
    weight `W[q, k]`. -/
theorem dot24_apply (p : Fin 50000) (q : Fin 256) :
    val_main_v24 (F := Ideal) x0 x1 x2 (ix2 p q)
      = ∑ k : Fin 128, Ideal.div (val_main_v13 (F := Ideal) x0 x1 (ix2 p k)) (max (val_main_v17 (F := Ideal) x1 (ix1 p)) Cert.Spec.one32)
          * x2 (ix2 q k) := by
  rw [val_main_v24_apply]
  refine Finset.sum_congr rfl fun k _ => ?_
  have el : lidx_main_v24 (ix2 p q) k = ix2 p k := funext fun a => Fin.ext (by match a with | ⟨0, _⟩ => rfl | ⟨1, _⟩ => rfl)
  have er : idx_main_v23 (ridx_main_v24 (ix2 p q) k) = ix2 q k := funext fun a => Fin.ext (by match a with | ⟨0, _⟩ => rfl | ⟨1, _⟩ => rfl)
  rw [val_main_v23_apply, el, er, mean1_apply x0 x1 p k]

/-- The first layer's bias spread over the nodes: at `(p, q)` it is `b[q]`. -/
theorem bias26_apply (p : Fin 50000) (q : Fin 256) : val_main_v26 (F := Ideal) x3 (ix2 p q) = x3 (ix1 q) := by
  have e : idx_main_v25 (idx_main_v26 (ix2 p q)) = ix1 q := funext fun a => Fin.ext (by match a with | ⟨0, _⟩ => rfl)
  rw [val_main_v26_apply, val_main_v25_apply, e]

/-- The second product of the first layer: entry `(p, q)` is the sum over `k` of the node's own feature `k` times the
    weight `W[q, k]`. -/
theorem dot29_apply (p : Fin 50000) (q : Fin 256) :
    val_main_v29 (F := Ideal) x0 x4 (ix2 p q) = ∑ k : Fin 128, x0 (ix2 p k) * x4 (ix2 q k) := by
  rw [val_main_v29_apply]
  refine Finset.sum_congr rfl fun k _ => ?_
  have el : lidx_main_v29 (ix2 p q) k = ix2 p k := funext fun a => Fin.ext (by match a with | ⟨0, _⟩ => rfl | ⟨1, _⟩ => rfl)
  have er : idx_main_v28 (ridx_main_v29 (ix2 p q) k) = ix2 q k := funext fun a => Fin.ext (by match a with | ⟨0, _⟩ => rfl | ⟨1, _⟩ => rfl)
  rw [val_main_v28_apply, el, er]

/-- The first layer's output entry: the first product plus the bias plus the second product, clamped below at zero. -/
theorem relu31_apply (p : Fin 50000) (q : Fin 256) :
    val_main_v31 (F := Ideal) x0 x1 x2 x3 x4 (ix2 p q)
      = max (((∑ k : Fin 128, Ideal.div (val_main_v13 (F := Ideal) x0 x1 (ix2 p k)) (max (val_main_v17 (F := Ideal) x1 (ix1 p)) Cert.Spec.one32)
              * x2 (ix2 q k)) + x3 (ix1 q))
          + ∑ k : Fin 128, x0 (ix2 p k) * x4 (ix2 q k)) Cert.Spec.zero32 := by
  rw [val_main_v31_apply, val_main_v30_apply, val_main_v27_apply, val_main_call0_v0_apply, val_main_call0_cst_apply,
    dot24_apply x0 x1 x2 p q, bias26_apply x3 p q, dot29_apply x0 x4 p q]
  rfl

/-! ### The second layer -/

/-- The second layer's clamped degree spread along a node's row: at `(p, k)` it is the degree of node `p` clamped below
    at one. -/
theorem cnt2_apply (p : Fin 50000) (k : Fin 256) :
    val_main_v49 (F := Ideal) x1 (ix2 p k) = max (val_main_v45 (F := Ideal) x1 (ix1 p)) Cert.Spec.one32 := by
  have e : idx_main_v48 (idx_main_v49 (ix2 p k)) = ix1 p := funext fun a => Fin.ext (by match a with | ⟨0, _⟩ => rfl)
  rw [val_main_v49_apply, val_main_v48_apply, val_main_v47_apply, val_main_v46_apply, val_main_cst_9_apply, e]
  rfl

/-- The mean of the neighbours' first-layer outputs: the second aggregation's entry `(p, k)` divided by the clamped
    degree of node `p`. -/
theorem mean2_apply (p : Fin 50000) (k : Fin 256) :
    val_main_v50 (F := Ideal) x0 x1 x2 x3 x4 (ix2 p k)
      = Ideal.div (val_main_v41 (F := Ideal) x0 x1 x2 x3 x4 (ix2 p k)) (max (val_main_v45 (F := Ideal) x1 (ix1 p)) Cert.Spec.one32) := by
  rw [val_main_v50_apply, cnt2_apply x1 p k]
  rfl

/-- The first product of the second layer: entry `(p, q)` is the sum over `k` of the mean row's entry `k` times the
    weight `W[q, k]`. -/
theorem dot52_apply (p : Fin 50000) (q : Fin 256) :
    val_main_v52 (F := Ideal) x0 x1 x2 x3 x4 x5 (ix2 p q)
      = ∑ k : Fin 256, Ideal.div (val_main_v41 (F := Ideal) x0 x1 x2 x3 x4 (ix2 p k)) (max (val_main_v45 (F := Ideal) x1 (ix1 p)) Cert.Spec.one32)
          * x5 (ix2 q k) := by
  rw [val_main_v52_apply]
  refine Finset.sum_congr rfl fun k _ => ?_
  have el : lidx_main_v52 (ix2 p q) k = ix2 p k := funext fun a => Fin.ext (by match a with | ⟨0, _⟩ => rfl | ⟨1, _⟩ => rfl)
  have er : idx_main_v51 (ridx_main_v52 (ix2 p q) k) = ix2 q k := funext fun a => Fin.ext (by match a with | ⟨0, _⟩ => rfl | ⟨1, _⟩ => rfl)
  rw [val_main_v51_apply, el, er, mean2_apply x0 x1 x2 x3 x4 p k]

/-- The second layer's bias spread over the nodes: at `(p, q)` it is `b[q]`. -/
theorem bias54_apply (p : Fin 50000) (q : Fin 256) : val_main_v54 (F := Ideal) x6 (ix2 p q) = x6 (ix1 q) := by
  have e : idx_main_v53 (idx_main_v54 (ix2 p q)) = ix1 q := funext fun a => Fin.ext (by match a with | ⟨0, _⟩ => rfl)
  rw [val_main_v54_apply, val_main_v53_apply, e]

/-- The second product of the second layer: entry `(p, q)` is the sum over `k` of the node's first-layer output `k`
    times the weight `W[q, k]`. -/
theorem dot57_apply (p : Fin 50000) (q : Fin 256) :
    val_main_v57 (F := Ideal) x0 x1 x2 x3 x4 x7 (ix2 p q)
      = ∑ k : Fin 256, val_main_v31 (F := Ideal) x0 x1 x2 x3 x4 (ix2 p k) * x7 (ix2 q k) := by
  rw [val_main_v57_apply]
  refine Finset.sum_congr rfl fun k _ => ?_
  have el : lidx_main_v57 (ix2 p q) k = ix2 p k := funext fun a => Fin.ext (by match a with | ⟨0, _⟩ => rfl | ⟨1, _⟩ => rfl)
  have er : idx_main_v56 (ridx_main_v57 (ix2 p q) k) = ix2 q k := funext fun a => Fin.ext (by match a with | ⟨0, _⟩ => rfl | ⟨1, _⟩ => rfl)
  rw [val_main_v56_apply, el, er]

/-- The second layer's output entry: the first product plus the bias plus the second product, clamped below at zero. -/
theorem relu59_apply (p : Fin 50000) (q : Fin 256) :
    val_main_v59 (F := Ideal) x0 x1 x2 x3 x4 x5 x6 x7 (ix2 p q)
      = max (((∑ k : Fin 256, Ideal.div (val_main_v41 (F := Ideal) x0 x1 x2 x3 x4 (ix2 p k)) (max (val_main_v45 (F := Ideal) x1 (ix1 p)) Cert.Spec.one32)
              * x5 (ix2 q k)) + x6 (ix1 q))
          + ∑ k : Fin 256, val_main_v31 (F := Ideal) x0 x1 x2 x3 x4 (ix2 p k) * x7 (ix2 q k)) Cert.Spec.zero32 := by
  rw [val_main_v59_apply, val_main_v58_apply, val_main_v55_apply, val_main_call1_v0_apply, val_main_call1_cst_apply,
    dot52_apply x0 x1 x2 x3 x4 x5 p q, bias54_apply x6 p q, dot57_apply x0 x1 x2 x3 x4 x7 p q]
  rfl

/-! ### The decoder -/

/-- The decoder's first product: entry `(p, q)` is the sum over `k` of the node's second-layer output `k` times the
    weight `W[q, k]`. -/
theorem dot61_apply (p : Fin 50000) (q : Fin 128) :
    val_main_v61 (F := Ideal) x0 x1 x2 x3 x4 x5 x6 x7 x8 (ix2 p q)
      = ∑ k : Fin 256, val_main_v59 (F := Ideal) x0 x1 x2 x3 x4 x5 x6 x7 (ix2 p k) * x8 (ix2 q k) := by
  rw [val_main_v61_apply]
  refine Finset.sum_congr rfl fun k _ => ?_
  have el : lidx_main_v61 (ix2 p q) k = ix2 p k := funext fun a => Fin.ext (by match a with | ⟨0, _⟩ => rfl | ⟨1, _⟩ => rfl)
  have er : idx_main_v60 (ridx_main_v61 (ix2 p q) k) = ix2 q k := funext fun a => Fin.ext (by match a with | ⟨0, _⟩ => rfl | ⟨1, _⟩ => rfl)
  rw [val_main_v60_apply, el, er]

/-- The decoder's first bias spread over the nodes: at `(p, q)` it is `b[q]`. -/
theorem bias63_apply (p : Fin 50000) (q : Fin 128) : val_main_v63 (F := Ideal) x9 (ix2 p q) = x9 (ix1 q) := by
  have e : idx_main_v62 (idx_main_v63 (ix2 p q)) = ix1 q := funext fun a => Fin.ext (by match a with | ⟨0, _⟩ => rfl)
  rw [val_main_v63_apply, val_main_v62_apply, e]

/-- The decoder's first hidden row of node `p`: the first affine map of the node's second-layer output row, clamped
    below at zero. -/
theorem relu65_row (p : Fin 50000) :
    (fun j : Fin 128 => val_main_v65 (F := Ideal) x0 x1 x2 x3 x4 x5 x6 x7 x8 x9 (ix2 p j))
      = fun j : Fin 128 => max (Cert.Spec.affRow (fun k : Fin 256 => val_main_v59 (F := Ideal) x0 x1 x2 x3 x4 x5 x6 x7 (ix2 p k))
          (fun k q => x8 (ix2 q k)) (fun q => x9 (ix1 q)) j) Cert.Spec.zero32 := by
  funext j
  rw [val_main_v65_apply, val_main_v64_apply, val_main_call2_v0_apply, val_main_call2_cst_apply,
    dot61_apply x0 x1 x2 x3 x4 x5 x6 x7 x8 p j, bias63_apply x9 p j]
  rfl

/-- The decoder's second product: entry `(p, q)` is the sum over `k` of the first hidden row's entry `k` times the
    weight `W[q, k]`. -/
theorem dot67_apply (p : Fin 50000) (q : Fin 64) :
    val_main_v67 (F := Ideal) x0 x1 x2 x3 x4 x5 x6 x7 x8 x9 x10 (ix2 p q)
      = ∑ k : Fin 128, val_main_v65 (F := Ideal) x0 x1 x2 x3 x4 x5 x6 x7 x8 x9 (ix2 p k) * x10 (ix2 q k) := by
  rw [val_main_v67_apply]
  refine Finset.sum_congr rfl fun k _ => ?_
  have el : lidx_main_v67 (ix2 p q) k = ix2 p k := funext fun a => Fin.ext (by match a with | ⟨0, _⟩ => rfl | ⟨1, _⟩ => rfl)
  have er : idx_main_v66 (ridx_main_v67 (ix2 p q) k) = ix2 q k := funext fun a => Fin.ext (by match a with | ⟨0, _⟩ => rfl | ⟨1, _⟩ => rfl)
  rw [val_main_v66_apply, el, er]

/-- The decoder's second bias spread over the nodes: at `(p, q)` it is `b[q]`. -/
theorem bias69_apply (p : Fin 50000) (q : Fin 64) : val_main_v69 (F := Ideal) x11 (ix2 p q) = x11 (ix1 q) := by
  have e : idx_main_v68 (idx_main_v69 (ix2 p q)) = ix1 q := funext fun a => Fin.ext (by match a with | ⟨0, _⟩ => rfl)
  rw [val_main_v69_apply, val_main_v68_apply, e]

/-- The decoder's second hidden row of node `p`: the second affine map of the first hidden row, clamped below at
    zero. -/
theorem relu71_row (p : Fin 50000) :
    (fun j : Fin 64 => val_main_v71 (F := Ideal) x0 x1 x2 x3 x4 x5 x6 x7 x8 x9 x10 x11 (ix2 p j))
      = fun j : Fin 64 => max (Cert.Spec.affRow (fun k : Fin 128 => val_main_v65 (F := Ideal) x0 x1 x2 x3 x4 x5 x6 x7 x8 x9 (ix2 p k))
          (fun k q => x10 (ix2 q k)) (fun q => x11 (ix1 q)) j) Cert.Spec.zero32 := by
  funext j
  rw [val_main_v71_apply, val_main_v70_apply, val_main_call3_v0_apply, val_main_call3_cst_apply,
    dot67_apply x0 x1 x2 x3 x4 x5 x6 x7 x8 x9 x10 p j, bias69_apply x11 p j]
  rfl

/-- The decoder's third product: entry `(p, q)` is the sum over `k` of the second hidden row's entry `k` times the
    weight `W[q, k]`. -/
theorem dot73_apply (p : Fin 50000) (q : Fin 10) :
    val_main_v73 (F := Ideal) x0 x1 x2 x3 x4 x5 x6 x7 x8 x9 x10 x11 x12 (ix2 p q)
      = ∑ k : Fin 64, val_main_v71 (F := Ideal) x0 x1 x2 x3 x4 x5 x6 x7 x8 x9 x10 x11 (ix2 p k) * x12 (ix2 q k) := by
  rw [val_main_v73_apply]
  refine Finset.sum_congr rfl fun k _ => ?_
  have el : lidx_main_v73 (ix2 p q) k = ix2 p k := funext fun a => Fin.ext (by match a with | ⟨0, _⟩ => rfl | ⟨1, _⟩ => rfl)
  have er : idx_main_v72 (ridx_main_v73 (ix2 p q) k) = ix2 q k := funext fun a => Fin.ext (by match a with | ⟨0, _⟩ => rfl | ⟨1, _⟩ => rfl)
  rw [val_main_v72_apply, el, er]

/-- The decoder's third bias spread over the nodes: at `(p, q)` it is `b[q]`. -/
theorem bias75_apply (p : Fin 50000) (q : Fin 10) : val_main_v75 (F := Ideal) x13 (ix2 p q) = x13 (ix1 q) := by
  have e : idx_main_v74 (idx_main_v75 (ix2 p q)) = ix1 q := funext fun a => Fin.ext (by match a with | ⟨0, _⟩ => rfl)
  rw [val_main_v75_apply, val_main_v74_apply, e]

/-- The decoder's output entry `(p, q)`: the third affine map of the second hidden row of node `p`. -/
theorem out76_apply (p : Fin 50000) (q : Fin 10) :
    val_main_v76 (F := Ideal) x0 x1 x2 x3 x4 x5 x6 x7 x8 x9 x10 x11 x12 x13 (ix2 p q)
      = Cert.Spec.affRow (fun k : Fin 64 => val_main_v71 (F := Ideal) x0 x1 x2 x3 x4 x5 x6 x7 x8 x9 x10 x11 (ix2 p k))
          (fun k q => x12 (ix2 q k)) (fun q => x13 (ix1 q)) q := by
  rw [val_main_v76_apply, dot73_apply x0 x1 x2 x3 x4 x5 x6 x7 x8 x9 x10 x11 x12 p q, bias75_apply x13 p q]
  rfl

end Stages

/-- The reference's first layer output is the layer function of the aggregated features, the degrees, the node features,
    the two weight arrays and the bias. -/
theorem h1_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v31 (F := Ideal) x0 x1 x2 x3 x4
      = Cert.Spec.sageOf 128 (val_main_v13 (F := Ideal) x0 x1) (val_main_v17 (F := Ideal) x1) x0 x2 x4 x3 := by
  funext i
  obtain ⟨p, q, rfl⟩ : ∃ (p : Fin 50000) (q : Fin 256), i = ix2 p q := ⟨i 0, i 1, eq_ix2 i⟩
  rw [relu31_apply x0 x1 x2 x3 x4 p q]
  show _ = Cert.Spec.sageRow 128 (fun k => val_main_v13 (F := Ideal) x0 x1 (ix2 p k)) (val_main_v17 (F := Ideal) x1 (ix1 p))
    (fun k => x0 (ix2 p k)) (fun k q => x2 (ix2 q k)) (fun k q => x4 (ix2 q k)) (fun q => x3 (ix1 q)) q
  unfold Cert.Spec.sageRow
  rw [add_right_comm]

/-- The reference's second layer output is the layer function of the second aggregation, the degrees, the first layer's
    output, the two weight arrays and the bias. -/
theorem h2_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) :
    val_main_v59 (F := Ideal) x0 x1 x2 x3 x4 x5 x6 x7
      = Cert.Spec.sageOf 256 (agg2 (val_main_v31 (F := Ideal) x0 x1 x2 x3 x4) x1) (val_main_v17 (F := Ideal) x1)
          (val_main_v31 (F := Ideal) x0 x1 x2 x3 x4) x5 x7 x6 := by
  rw [← v41_eq (F := Ideal) x0 x1 x2 x3 x4, ← v45_eq (F := Ideal) x1]
  funext i
  obtain ⟨p, q, rfl⟩ : ∃ (p : Fin 50000) (q : Fin 256), i = ix2 p q := ⟨i 0, i 1, eq_ix2 i⟩
  rw [relu59_apply x0 x1 x2 x3 x4 x5 x6 x7 p q]
  show _ = Cert.Spec.sageRow 256 (fun k => val_main_v41 (F := Ideal) x0 x1 x2 x3 x4 (ix2 p k)) (val_main_v45 (F := Ideal) x1 (ix1 p))
    (fun k => val_main_v31 (F := Ideal) x0 x1 x2 x3 x4 (ix2 p k)) (fun k q => x5 (ix2 q k)) (fun k q => x7 (ix2 q k))
    (fun q => x6 (ix1 q)) q
  unfold Cert.Spec.sageRow
  rw [add_right_comm]

/-- The reference's decoder output is the decoder function of the second layer's output and the six decoder arrays. -/
theorem q_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S128x256, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S10x64, .f32⟩ : BufTy).Contents (Elt Ideal)) (x13 : (⟨S10, .f32⟩ : BufTy).Contents (Elt Ideal)) :
    val_main_v76 (F := Ideal) x0 x1 x2 x3 x4 x5 x6 x7 x8 x9 x10 x11 x12 x13
      = Cert.Spec.decOf (val_main_v59 (F := Ideal) x0 x1 x2 x3 x4 x5 x6 x7) x8 x9 x10 x11 x12 x13 := by
  funext i
  obtain ⟨p, q, rfl⟩ : ∃ (p : Fin 50000) (q : Fin 10), i = ix2 p q := ⟨i 0, i 1, eq_ix2 i⟩
  rw [out76_apply x0 x1 x2 x3 x4 x5 x6 x7 x8 x9 x10 x11 x12 x13 p q, relu71_row x0 x1 x2 x3 x4 x5 x6 x7 x8 x9 x10 x11 p,
    relu65_row x0 x1 x2 x3 x4 x5 x6 x7 x8 x9 p]
  rfl

end Cert.ReferenceIdeal.RefValue

end
-- ==== Proof.KTerms.lean ====
/-
  The host-side aggregation terms of the kernel program, as functions of plain arrays, and that they are the reference's:
  the source and destination nodes sliced off the edge array, the source nodes wrapped into range as gather indices,
  the degree count (ones summed into the destination nodes), and the two aggregations (gathered rows summed into the
  destination rows). Both programs print the same operations with the same attributes, so each equation is by
  unfolding the two definitions.
-/
import proofs.«120245_j26336739459481_1_alg».proof.Proof.Gen.KernelIdeal
import proofs.«120245_j26336739459481_1_alg».proof.Proof.RefVal

noncomputable section

namespace Cert.KernelIdeal.Terms

open Idealize.ShloMosaic Cert.KernelIdeal Cert.KernelIdeal.Gen

variable {F : FTy → Type} [FloatOps F]

/-- The source nodes: row 0 of the edge array. -/
def srcK (x1 : (⟨S2x800000, .i32⟩ : BufTy).Contents (Elt F)) : (⟨S800000, .i32⟩ : BufTy).Contents (Elt F) :=
  shapeCast S800000 (extractStridedSlice S1x800000 ![0, 0] x1 slices_S2x800000_S1x800000_0_0) shapeCasts_S1x800000_S800000

/-- The destination nodes: row 1 of the edge array. -/
def dstK (x1 : (⟨S2x800000, .i32⟩ : BufTy).Contents (Elt F)) : (⟨S800000, .i32⟩ : BufTy).Contents (Elt F) :=
  shapeCast S800000 (extractStridedSlice S1x800000 ![1, 0] x1 slices_S2x800000_S1x800000_1_0) shapeCasts_S1x800000_S800000

/-- The source nodes with negative entries wrapped by the node count, as a column of gather indices. -/
def srcIdxK (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The degree count: ones summed into the destination nodes. -/
def cntK (d : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32))
    (broadcastInDim S800000x1 ![0] bcast_S800000_S800000x1_0 d) (broadcastInDim S800000 ![] bcast_S_S800000 (constant S_ .f32 0x3F800000#32))

/-- The first aggregation: rows of the node features gathered at the source nodes, summed into the destination rows. -/
def agg1K (x0 : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 x0 (srcIdxK (F := F) s))

/-- The second aggregation, of the first layer's output. -/
def agg2K (h : (⟨S50000x256, .f32⟩ : BufTy).Contents (Elt F)) (s d : (⟨S800000, .i32⟩ : BufTy).Contents (Elt F)) : (⟨S50000x256, .f32⟩ : BufTy).Contents (Elt F) :=
  Host.scatterAdd scatter_S50000x256_S800000x1_S800000x256_1_0_0_1 (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 h (srcIdxK (F := F) s))

/-! ## They are the reference's -/

theorem src_eq (x1 : (⟨S2x800000, .i32⟩ : BufTy).Contents (Elt F)) : srcK (F := F) x1 = Cert.ReferenceIdeal.Read.val_main_v1 (F := F) x1 := rfl
theorem dst_eq (x1 : (⟨S2x800000, .i32⟩ : BufTy).Contents (Elt F)) : dstK (F := F) x1 = Cert.ReferenceIdeal.Read.val_main_v3 (F := F) x1 := rfl

/-- The wrapped source nodes are the reference's gather indices, in both layers. -/
theorem srcIdx_eq1 (x1 : (⟨S2x800000, .i32⟩ : BufTy).Contents (Elt F)) : srcIdxK (F := F) (srcK (F := F) x1) = Cert.ReferenceIdeal.Read.val_main_v9 (F := F) x1 := rfl
theorem srcIdx_eq2 (x1 : (⟨S2x800000, .i32⟩ : BufTy).Contents (Elt F)) : srcIdxK (F := F) (srcK (F := F) x1) = Cert.ReferenceIdeal.Read.val_main_v37 (F := F) x1 := rfl

theorem cnt_eq (x1 : (⟨S2x800000, .i32⟩ : BufTy).Contents (Elt F)) : cntK (F := F) (dstK (F := F) x1) = Cert.ReferenceIdeal.Read.val_main_v17 (F := F) x1 := rfl

theorem agg1_eq (x0 : (⟨S50000x128, .f32⟩ : BufTy).Contents (Elt F)) (x1 : (⟨S2x800000, .i32⟩ : BufTy).Contents (Elt F)) :
    agg1K (F := F) x0 (srcK (F := F) x1) (dstK (F := F) x1) = Cert.ReferenceIdeal.Read.val_main_v13 (F := F) x0 x1 := by
  unfold agg1K Cert.ReferenceIdeal.Read.val_main_v13 Cert.ReferenceIdeal.Read.val_main_v10
  rw [srcIdx_eq1]
  rfl

theorem agg2_eq (h : (⟨S50000x256, .f32⟩ : BufTy).Contents (Elt F)) (x1 : (⟨S2x800000, .i32⟩ : BufTy).Contents (Elt F)) :
    agg2K (F := F) h (srcK (F := F) x1) (dstK (F := F) x1) = Cert.ReferenceIdeal.RefValue.agg2 (F := F) h x1 := by
  unfold agg2K Cert.ReferenceIdeal.RefValue.agg2
  rw [srcIdx_eq2]
  rfl

end Cert.KernelIdeal.Terms

end
-- ==== Proof.KEntry.lean ====
/-
  What each kernel region finds in its operand arrays, in terms of the launch arguments. Before the first region the
  host computes the degree count (ones summed into the destination nodes), the first aggregation (rows of the node
  features gathered at the wrapped source nodes and summed into the destination nodes' rows), the two transposed
  weight arrays and the bias as a row. Between the regions it computes the second aggregation from the first region's
  output, and again transposed weights and a bias row; the degree column and the first output are as the first region
  left them. Before the decoder it transposes the three weight arrays and makes the three biases rows.
-/
import proofs.«120245_j26336739459481_1_alg».proof.Proof.Gen.KernelIdeal.Frame
import proofs.«120245_j26336739459481_1_alg».proof.Proof.KTerms
import Idealize.ShloMosaic.Lib.StableHlo.Run

noncomputable section

set_option maxRecDepth 16384

namespace Cert.KernelIdeal.Entry

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Before the first region -/

/-- The source and destination nodes, as the host slices them off the edge array. -/
theorem w1_src (c : Dev nD) : W1 m ρ c (Proc.devRef .tc main_v1) = (Terms.srcK (F := F) (m ((c : Thread nD τ).loc main_arg1))) := by
  show StableHlo.after hostOps0 (W0 m ρ c) (Proc.devRef .tc main_v1) = _
  after_results_simp
  rfl
theorem w1_dst (c : Dev nD) : W1 m ρ c (Proc.devRef .tc main_v3) = (Terms.dstK (F := F) (m ((c : Thread nD τ).loc main_arg1))) := by
  show StableHlo.after hostOps0 (W0 m ρ c) (Proc.devRef .tc main_v3) = _
  after_results_simp
  rfl

/-- The first aggregation. -/
theorem e0_agg (c : Dev nD) : V1 m ρ c main_v20 = Terms.agg1K (F := F) (m ((c : Thread nD τ).loc main_arg0)) (Terms.srcK (F := F) (m ((c : Thread nD τ).loc main_arg1))) (Terms.dstK (F := F) (m ((c : Thread nD τ).loc main_arg1))) := by
  show StableHlo.after hostOps0 (W0 m ρ c) (Proc.devRef .tc main_v20) = _
  after_results_simp
  rfl

/-- The degree count, as a column. -/
theorem e0_cnt (c : Dev nD) : V1 m ρ c main_v8 = shapeCast S50000x1 (Terms.cntK (F := F) (Terms.dstK (F := F) (m ((c : Thread nD τ).loc main_arg1)))) shapeCasts_S50000_S50000x1 := by
  show StableHlo.after hostOps0 (W0 m ρ c) (Proc.devRef .tc main_v8) = _
  after_results_simp
  rfl

/-- The node features are the first argument itself. -/
theorem e0_x (c : Dev nD) : V1 m ρ c main_arg0 = (m ((c : Thread nD τ).loc main_arg0)) := by
  show StableHlo.after hostOps0 (W0 m ρ c) (Proc.devRef .tc main_arg0) = _
  after_results_simp

/-- The first layer's two weight arrays, transposed, and its bias as a row. -/
theorem e0_wl (c : Dev nD) : V1 m ρ c main_v9 = transpose S128x256 [1, 0] (m ((c : Thread nD τ).loc main_arg2)) transposes_S256x128_S128x256_1_0 := by
  show StableHlo.after hostOps0 (W0 m ρ c) (Proc.devRef .tc main_v9) = _
  after_results_simp
theorem e0_wr (c : Dev nD) : V1 m ρ c main_v10 = transpose S128x256 [1, 0] (m ((c : Thread nD τ).loc main_arg4)) transposes_S256x128_S128x256_1_0 := by
  show StableHlo.after hostOps0 (W0 m ρ c) (Proc.devRef .tc main_v10) = _
  after_results_simp
theorem e0_b (c : Dev nD) : V1 m ρ c main_v21 = shapeCast S1x256 (m ((c : Thread nD τ).loc main_arg3)) shapeCasts_S256_S1x256 := by
  show StableHlo.after hostOps0 (W0 m ρ c) (Proc.devRef .tc main_v21) = _
  after_results_simp
  rfl

/-! ## Between the first two regions -/

/-- The first region leaves the source and destination nodes alone. -/
theorem w2_src (c : Dev nD) : W2 m ρ c (Proc.devRef .tc main_v1) = (Terms.srcK (F := F) (m ((c : Thread nD τ).loc main_arg1))) :=
  (W2_of_ne m ρ c main_v1 (by decide)).trans (w1_src m ρ c)
theorem w2_dst (c : Dev nD) : W2 m ρ c (Proc.devRef .tc main_v3) = (Terms.dstK (F := F) (m ((c : Thread nD τ).loc main_arg1))) :=
  (W2_of_ne m ρ c main_v3 (by decide)).trans (w1_dst m ρ c)

/-- An argument no host operation before the first region writes, and the first region does not touch, is as launched. -/
theorem w2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp
theorem w2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp
theorem w2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp
theorem w2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp
theorem w2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp
theorem w2_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results_simp
theorem w2_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results_simp
theorem w2_arg12 (c : Dev nD) : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results_simp
theorem w2_arg13 (c : Dev nD) : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  after_results_simp

/-- The first region's output array, and its degree column kept as entered. -/
theorem w2_h1 (c : Dev nD) : W2 m ρ c (Proc.devRef .tc main_v22) = (dat0 (V1 m ρ) c).arrAt 6 cfg0.N := W2_arr m ρ c 6
theorem w2_cnt (c : Dev nD) : W2 m ρ c (Proc.devRef .tc main_v8) = V1 m ρ c main_v8 :=
  (W2_arr m ρ c 1).trans (((dat0 (V1 m ρ) c).arrAt_in 1 rfl _).trans (A_eq0 (V1 m ρ) c 1))

/-- The second aggregation: gathered rows of the first region's output summed into the destination rows. -/
theorem e1_agg (c : Dev nD) : V3 m ρ c main_v34 = Terms.agg2K (F := F) ((dat0 (V1 m ρ) c).arrAt 6 cfg0.N) (Terms.srcK (F := F) (m ((c : Thread nD τ).loc main_arg1))) (Terms.dstK (F := F) (m ((c : Thread nD τ).loc main_arg1))) := by
  show StableHlo.after hostOps1 (W2 m ρ c) (Proc.devRef .tc main_v34) = _
  after_results_simp
  rw [w2_src m ρ c, w2_dst m ρ c, w2_h1 m ρ c]
  rfl

theorem e1_cnt (c : Dev nD) : V3 m ρ c main_v8 = shapeCast S50000x1 (Terms.cntK (F := F) (Terms.dstK (F := F) (m ((c : Thread nD τ).loc main_arg1)))) shapeCasts_S50000_S50000x1 := by
  show StableHlo.after hostOps1 (W2 m ρ c) (Proc.devRef .tc main_v8) = _
  after_results_simp
  exact (w2_cnt m ρ c).trans (e0_cnt m ρ c)

theorem e1_x (c : Dev nD) : V3 m ρ c main_v22 = (dat0 (V1 m ρ) c).arrAt 6 cfg0.N := by
  show StableHlo.after hostOps1 (W2 m ρ c) (Proc.devRef .tc main_v22) = _
  after_results_simp
  exact w2_h1 m ρ c

theorem e1_wl (c : Dev nD) : V3 m ρ c main_v23 = transpose S256x256 [1, 0] (m ((c : Thread nD τ).loc main_arg5)) transposes_S256x256_S256x256_1_0 := by
  show StableHlo.after hostOps1 (W2 m ρ c) (Proc.devRef .tc main_v23) = _
  after_results_simp
  rw [w2_arg5 m ρ c]
theorem e1_wr (c : Dev nD) : V3 m ρ c main_v24 = transpose S256x256 [1, 0] (m ((c : Thread nD τ).loc main_arg7)) transposes_S256x256_S256x256_1_0 := by
  show StableHlo.after hostOps1 (W2 m ρ c) (Proc.devRef .tc main_v24) = _
  after_results_simp
  rw [w2_arg7 m ρ c]
theorem e1_b (c : Dev nD) : V3 m ρ c main_v35 = shapeCast S1x256 (m ((c : Thread nD τ).loc main_arg6)) shapeCasts_S256_S1x256 := by
  show StableHlo.after hostOps1 (W2 m ρ c) (Proc.devRef .tc main_v35) = _
  after_results_simp
  rw [w2_arg6 m ρ c]
  rfl

/-! ## Before the decoder -/

theorem w4_arg8 (c : Dev nD) : W4 m ρ c (Proc.devRef .tc main_arg8) = (m ((c : Thread nD τ).loc main_arg8)) := by
  rw [W4_of_ne m ρ c main_arg8 (by decide)]
  show StableHlo.after hostOps1 (W2 m ρ c) (Proc.devRef .tc main_arg8) = _
  after_results_simp
  exact w2_arg8 m ρ c
theorem w4_arg9 (c : Dev nD) : W4 m ρ c (Proc.devRef .tc main_arg9) = (m ((c : Thread nD τ).loc main_arg9)) := by
  rw [W4_of_ne m ρ c main_arg9 (by decide)]
  show StableHlo.after hostOps1 (W2 m ρ c) (Proc.devRef .tc main_arg9) = _
  after_results_simp
  exact w2_arg9 m ρ c
theorem w4_arg10 (c : Dev nD) : W4 m ρ c (Proc.devRef .tc main_arg10) = (m ((c : Thread nD τ).loc main_arg10)) := by
  rw [W4_of_ne m ρ c main_arg10 (by decide)]
  show StableHlo.after hostOps1 (W2 m ρ c) (Proc.devRef .tc main_arg10) = _
  after_results_simp
  exact w2_arg10 m ρ c
theorem w4_arg11 (c : Dev nD) : W4 m ρ c (Proc.devRef .tc main_arg11) = (m ((c : Thread nD τ).loc main_arg11)) := by
  rw [W4_of_ne m ρ c main_arg11 (by decide)]
  show StableHlo.after hostOps1 (W2 m ρ c) (Proc.devRef .tc main_arg11) = _
  after_results_simp
  exact w2_arg11 m ρ c
theorem w4_arg12 (c : Dev nD) : W4 m ρ c (Proc.devRef .tc main_arg12) = (m ((c : Thread nD τ).loc main_arg12)) := by
  rw [W4_of_ne m ρ c main_arg12 (by decide)]
  show StableHlo.after hostOps1 (W2 m ρ c) (Proc.devRef .tc main_arg12) = _
  after_results_simp
  exact w2_arg12 m ρ c
theorem w4_arg13 (c : Dev nD) : W4 m ρ c (Proc.devRef .tc main_arg13) = (m ((c : Thread nD τ).loc main_arg13)) := by
  rw [W4_of_ne m ρ c main_arg13 (by decide)]
  show StableHlo.after hostOps1 (W2 m ρ c) (Proc.devRef .tc main_arg13) = _
  after_results_simp
  exact w2_arg13 m ρ c

/-- The decoder reads the second region's output array. -/
theorem e2_h (c : Dev nD) : V5 m ρ c main_v36 = (dat1 (V3 m ρ) c).arrAt 6 cfg1.N := by
  show StableHlo.after hostOps2 (W4 m ρ c) (Proc.devRef .tc main_v36) = _
  after_results_simp
  exact W4_arr m ρ c 6

theorem e2_w1 (c : Dev nD) : V5 m ρ c main_v37 = transpose S256x128 [1, 0] (m ((c : Thread nD τ).loc main_arg8)) transposes_S128x256_S256x128_1_0 := by
  show StableHlo.after hostOps2 (W4 m ρ c) (Proc.devRef .tc main_v37) = _
  after_results_simp
  rw [w4_arg8 m ρ c]
theorem e2_w2 (c : Dev nD) : V5 m ρ c main_v38 = transpose S128x64 [1, 0] (m ((c : Thread nD τ).loc main_arg10)) transposes_S64x128_S128x64_1_0 := by
  show StableHlo.after hostOps2 (W4 m ρ c) (Proc.devRef .tc main_v38) = _
  after_results_simp
  rw [w4_arg10 m ρ c]
theorem e2_w3 (c : Dev nD) : V5 m ρ c main_v39 = transpose S64x10 [1, 0] (m ((c : Thread nD τ).loc main_arg12)) transposes_S10x64_S64x10_1_0 := by
  show StableHlo.after hostOps2 (W4 m ρ c) (Proc.devRef .tc main_v39) = _
  after_results_simp
  rw [w4_arg12 m ρ c]
theorem e2_b1 (c : Dev nD) : V5 m ρ c main_v40 = shapeCast S1x128 (m ((c : Thread nD τ).loc main_arg9)) shapeCasts_S128_S1x128 := by
  show StableHlo.after hostOps2 (W4 m ρ c) (Proc.devRef .tc main_v40) = _
  after_results_simp
  rw [w4_arg9 m ρ c]
  rfl
theorem e2_b2 (c : Dev nD) : V5 m ρ c main_v41 = shapeCast S1x64 (m ((c : Thread nD τ).loc main_arg11)) shapeCasts_S64_S1x64 := by
  show StableHlo.after hostOps2 (W4 m ρ c) (Proc.devRef .tc main_v41) = _
  after_results_simp
  rw [w4_arg11 m ρ c]
  rfl
theorem e2_b3 (c : Dev nD) : V5 m ρ c main_v42 = shapeCast S1x10 (m ((c : Thread nD τ).loc main_arg13)) shapeCasts_S10_S1x10 := by
  show StableHlo.after hostOps2 (W4 m ρ c) (Proc.devRef .tc main_v42) = _
  after_results_simp
  rw [w4_arg13 m ρ c]
  rfl

/-! ## After the decoder -/

/-- The two results at the last boundary: the decoder's output array, and the second region's output, which the
    decoder only reads. -/
theorem w6_q (c : Dev nD) : W6 m ρ c (Proc.devRef .tc main_v43) = (dat2 (V5 m ρ) c).arrAt 7 cfg2.N := W6_arr m ρ c 7
theorem w6_h2 (c : Dev nD) : W6 m ρ c (Proc.devRef .tc main_v36) = (dat1 (V3 m ρ) c).arrAt 6 cfg1.N :=
  (W6_arr m ρ c 0).trans ((((dat2 (V5 m ρ) c).arrAt_in 0 rfl _).trans (A_eq2 (V5 m ρ) c 0)).trans (e2_h m ρ c))

end Cert.KernelIdeal.Entry

end
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Pay0.lean ====
/-
  The first graph-convolution kernel's stored block, read at an entry: the body's one payload at `(p, q)` is the layer's
  row function of row `p` of its loaded blocks (the changes of float format are the identity on the extended reals, each
  matrix product into a zero accumulator is the plain sum over the contracted axis).
-/
import proofs.«120245_j26336739459481_1_alg».proof.Proof.Gen.KernelIdeal.Skeleton
import proofs.«120245_j26336739459481_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«120245_j26336739459481_1_alg».proof.Proof.LibColumnBroadcast

noncomputable section

namespace Cert.KernelIdeal.Pay

open Idealize.ShloMosaic Idealize.ShloMosaic.ValueIdx Cert.KernelIdeal Cert.KernelIdeal.Gen

/-- Row axis of the left operand's index in the first layer's product: the output's row. -/
theorem lhs_mm0_0 (i : S2000x256.Idx) (c : dot_S2000x128_S128x256_S2000x256_1_0_0_1_n_n.contr.Idx) :
    (dot_S2000x128_S128x256_S2000x256_1_0_0_1_n_n.lhsIdx i c 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- Column axis of the left operand's index: the contracted coordinate. -/
theorem lhs_mm0_1 (i : S2000x256.Idx) (c : dot_S2000x128_S128x256_S2000x256_1_0_0_1_n_n.contr.Idx) :
    (dot_S2000x128_S128x256_S2000x256_1_0_0_1_n_n.lhsIdx i c 1).val = (c ⟨0, by decide⟩).val :=
  dot_S2000x128_S128x256_S2000x256_1_0_0_1_n_n.lhsIdx_val_of_single rfl i c
/-- Row axis of the right operand's index: the contracted coordinate. -/
theorem rhs_mm0_0 (i : S2000x256.Idx) (c : dot_S2000x128_S128x256_S2000x256_1_0_0_1_n_n.contr.Idx) :
    (dot_S2000x128_S128x256_S2000x256_1_0_0_1_n_n.rhsIdx i c 0).val = (c ⟨0, by decide⟩).val :=
  dot_S2000x128_S128x256_S2000x256_1_0_0_1_n_n.rhsIdx_val_of_single rfl i c
/-- Column axis of the right operand's index: the output's column. -/
theorem rhs_mm0_1 (i : S2000x256.Idx) (c : dot_S2000x128_S128x256_S2000x256_1_0_0_1_n_n.contr.Idx) :
    (dot_S2000x128_S128x256_S2000x256_1_0_0_1_n_n.rhsIdx i c 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A `[2000,128] × [128,256]` product into the zero accumulator, at entry `(p, q)`: the sum over the contracted
    coordinate `k` of `l[p,k] · r[k,q]`. -/
theorem mm0_apply (l : FVec Ideal S2000x128 .bf16) (r : FVec Ideal S128x256 .bf16) (p : Fin 2000) (q : Fin 256) :
    matmul (F := Ideal) dot_S2000x128_S128x256_S2000x256_1_0_0_1_n_n none l r (constant S2000x256 .f32 0x00000000#32) (ix2 p q)
      = ∑ k : Fin 128, l (ix2 p k) * r (ix2 k q) := by
  refine (Ideal.matmul_constant_zero_apply dot_S2000x128_S128x256_S2000x256_1_0_0_1_n_n none l r (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

/-- Entry `(p, q)` of the block the first layer's kernel stores. -/
theorem pay0_apply (v0 : Vec Ideal S2000x1 .f32) (v4 : Vec Ideal S2000x128 .f32) (v9 : Vec Ideal S2000x128 .f32)
    (v11 : Vec Ideal S128x256 .f32) (v14 : Vec Ideal S128x256 .f32) (v20 : Vec Ideal S1x256 .f32) (p : Fin 2000) (q : Fin 256) :
    k0_pay1 (F := Ideal) v0 v4 v9 v11 v14 v20 (ix2 p q)
      = Cert.Spec.sageRow 128 (fun k => v4 (ix2 p k)) (v0 (ix2 p (0 : Fin 1))) (fun k => v9 (ix2 p k))
          (fun k q => v11 (ix2 k q)) (fun k q => v14 (ix2 k q)) (fun q => v20 (ix2 (0 : Fin 1) q)) q := by
  unfold Gen.k0_pay1
  simp only [maximumf_apply, addf_apply, broadcast_apply, mm0_apply, truncf_apply, divf_apply,
    shapeCast_self, broadcastTo_1b_ab_apply, broadcastTo_a1_ab_apply, Ideal.ofBits_def]
  rfl

end Cert.KernelIdeal.Pay

end
-- ==== Proof.Reg0.lean ====
/-
  The first graph-convolution region, as one whole-array function. The grid has 25 points; point `t` reads rows
  `2000·t … 2000·t + 1999` of the aggregated features, the degree column and the node features, the whole weight and bias
  arrays, and writes the same rows of the output. So the output array after the region holds, at `(r, q)`, the layer's
  row function of row `r` of the node-indexed arrays as the region found them.
-/
import proofs.«120245_j26336739459481_1_alg».proof.Proof.Gen.KernelIdeal.Frame
import proofs.«120245_j26336739459481_1_alg».proof.Proof.Pay0
import Idealize.ShloMosaic.Lib.Pipeline.Value

noncomputable section

set_option maxRecDepth 16384

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered: a parameter
variable (V : (c : Dev nD) → (b : Ref sig .tc) → Buf (Elt Ideal) ((c : Thread nD τ).loc b))

/-- The zero offsets of a rank-2 rectangle, as the constant function. -/
theorem zeroOff0 : (![0, 0] : Fin 2 → Nat) = fun _ => 0 := funext fun a => by
  match a with
  | ⟨0, _⟩ => rfl
  | ⟨1, _⟩ => rfl

/-- The block index of every window at grid point `t`: the node-indexed windows sit at row block `t`, the weight and
    bias windows at the one block of their arrays. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `(p, k)` of the aggregated-feature block at point `t` is entry `(2000·t + p, k)` of the array. -/
theorem aggBlock0 (c : Dev nD) (t : Fin cfg0.N) (p : Fin 2000) (k : Fin 128) (r : Fin 50000)
    (hr : r.val = 2000 * t.val + p.val) :
    (iblk0 (F := Ideal) V c 0 t : Vec Ideal S2000x128 .f32) (ix2 p k) = (V c main_v20 : S50000x128.Idx → EReal) (ix2 r k) := by
  obtain ⟨e0, e1, -⟩ := blockIdx0 t
  unfold iblk0
  rw [View.read_apply]
  show V c main_v20 _ = V c main_v20 _
  refine congrArg (V c main_v20) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Entry `(p, 0)` of the degree block at point `t` is entry `(2000·t + p, 0)` of the array. -/
theorem degBlock0 (c : Dev nD) (t : Fin cfg0.N) (p : Fin 2000) (r : Fin 50000)
    (hr : r.val = 2000 * t.val + p.val) :
    (iblk0 (F := Ideal) V c 1 t : Vec Ideal S2000x1 .f32) (ix2 p (0 : Fin 1)) = (V c main_v8 : S50000x1.Idx → EReal) (ix2 r (0 : Fin 1)) := by
  obtain ⟨-, -, e0, e1, -⟩ := blockIdx0 t
  unfold iblk0
  rw [View.read_apply]
  show V c main_v8 _ = V c main_v8 _
  refine congrArg (V c main_v8) (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- Entry `(p, k)` of the node-feature block at point `t` is entry `(2000·t + p, k)` of the array. -/
theorem featBlock0 (c : Dev nD) (t : Fin cfg0.N) (p : Fin 2000) (k : Fin 128) (r : Fin 50000)
    (hr : r.val = 2000 * t.val + p.val) :
    (iblk0 (F := Ideal) V c 2 t : Vec Ideal S2000x128 .f32) (ix2 p k) = (V c main_arg0 : S50000x128.Idx → EReal) (ix2 r k) := by
  obtain ⟨-, -, -, -, e0, e1, -⟩ := blockIdx0 t
  unfold iblk0
  rw [View.read_apply]
  show V c main_arg0 _ = V c main_arg0 _
  refine congrArg (V c main_arg0) (funext fun a => Fin.ext ?_)
  match a with
  | ⟨0, _⟩ => show win0_2.index t (0 : Fin 2) * 2000 + 1 * p.val = r.val; rw [e0, hr]; omega
  | ⟨1, _⟩ => show win0_2.index t (1 : Fin 2) * 128 + 1 * k.val = k.val; rw [e1]; omega

/-- The block of the weights applied to the mean row is, at every point, the whole array. -/
theorem wlBlock0 (c : Dev nD) (t : Fin cfg0.N) (k : Fin 128) (q : Fin 256) :
    (iblk0 (F := Ideal) V c 3 t : Vec Ideal S128x256 .f32) (ix2 k q) = (V c main_v9 : S128x256.Idx → EReal) (ix2 k q) := by
  obtain ⟨-, -, -, -, -, -, e0, e1, -⟩ := blockIdx0 t
  unfold iblk0
  rw [View.read_apply]
  show V c main_v9 _ = V c main_v9 _
  refine congrArg (V c main_v9) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The block of the weights applied to the node's own row is, at every point, the whole array. -/
theorem wrBlock0 (c : Dev nD) (t : Fin cfg0.N) (k : Fin 128) (q : Fin 256) :
    (iblk0 (F := Ideal) V c 4 t : Vec Ideal S128x256 .f32) (ix2 k q) = (V c main_v10 : S128x256.Idx → EReal) (ix2 k q) := by
  obtain ⟨-, -, -, -, -, -, -, -, e0, e1, -⟩ := blockIdx0 t
  unfold iblk0
  rw [View.read_apply]
  show V c main_v10 _ = V c main_v10 _
  refine congrArg (V c main_v10) (funext fun a => Fin.ext ?_)
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- The bias block is, at every point, the whole array. -/
theorem biasBlock0 (c : Dev nD) (t : Fin cfg0.N) (q : Fin 256) :
    (iblk0 (F := Ideal) V c 5 t : Vec Ideal S1x256 .f32) (ix2 (0 : Fin 1) q) = (V c main_v21 : S1x256.Idx → EReal) (ix2 (0 : Fin 1) q) := by
  obtain ⟨-, -, -, -, -, -, -, -, -, -, e0, e1, -⟩ := blockIdx0 t
  unfold iblk0
  rw [View.read_apply]
  show V c main_v21 _ = V c main_v21 _
  refine congrArg (V c main_v21) (funext fun a => Fin.ext ?_)
  match a with
  | ⟨0, _⟩ => show win0_5.index t (0 : Fin 2) * 1 + 1 * 0 = 0; rw [e0]
  | ⟨1, _⟩ => show win0_5.index t (1 : Fin 2) * 256 + 1 * q.val = q.val; rw [e1]; omega

/-- The first layer's output as one function of the arrays the region finds: entry `(r, q)` is the row function of row `r`. -/
abbrev layerOut0 (c : Dev nD) : S50000x256.Idx → EReal := fun i => Cert.Spec.sageRow 128
      (fun k => (V c main_v20 : S50000x128.Idx → EReal) (ix2 (i 0 : Fin 50000) k))
      ((V c main_v8 : S50000x1.Idx → EReal) (ix2 (i 0 : Fin 50000) (0 : Fin 1)))
      (fun k => (V c main_arg0 : S50000x128.Idx → EReal) (ix2 (i 0 : Fin 50000) k))
      (fun k q => (V c main_v9 : S128x256.Idx → EReal) (ix2 k q))
      (fun k q => (V c main_v10 : S128x256.Idx → EReal) (ix2 k q))
      (fun q => (V c main_v21 : S1x256.Idx → EReal) (ix2 (0 : Fin 1) q)) (i 1 : Fin 256)

/-- Entry `(p, q)` of the output block at point `t` sits at `(2000·t + p, q)` of the output array. -/
theorem outEmb0 (t : Fin cfg0.N) (p : Fin 2000) (q : Fin 256) (r : Fin 50000) (hr : r.val = 2000 * t.val + p.val) :
    (((cfg0.win 6).blk t).view.emb (ix2 p q) : S50000x256.Idx) = ix2 r q := by
  obtain ⟨-, -, -, -, -, -, -, -, -, -, -, -, e0, e1⟩ := blockIdx0 t
  refine funext fun a => Fin.ext ?_
  match a with
  | ⟨0, _⟩ => show win0_6.index t (0 : Fin 2) * 2000 + 1 * p.val = r.val; rw [e0, hr]; omega
  | ⟨1, _⟩ => show win0_6.index t (1 : Fin 2) * 256 + 1 * q.val = q.val; rw [e1]; omega

/-- What point `t` writes back is block `t` of the layer's output function. -/
theorem flushed0 (c : Dev nD) (t : Fin cfg0.N) :
    (dat0 (F := Ideal) V c).flushed 6 t = ((cfg0.win 6).blk t).view.read (Elt Ideal) (layerOut0 V c) := by
  show (cfg0.win 6).cut (grid0.coords t) ((dat0 (F := Ideal) V c).after 6 t) = _
  rw [after0_6]
  unfold out0_6
  rw [View.canon_unit_zero zeroOff0]
  simp only [View.ld_unit_zero (S := S2000x1) zeroOff0, View.ld_unit_zero (S := S2000x128) zeroOff0,
    View.ld_unit_zero (S := S128x256) zeroOff0, View.ld_unit_zero (S := S1x256) zeroOff0]
  funext j
  obtain ⟨p, q, rfl⟩ : ∃ (p : Fin 2000) (q : Fin 256), j = ix2 p q := ⟨j 0, j 1, eq_ix2 j⟩
  have hlt : 2000 * t.val + p.val < 50000 := by
    have hN : grid0.N = 25 := N_0
    have ht : t.val < grid0.N := t.isLt
    have hp : p.val < 2000 := p.isLt
    omega
  refine (Pay.pay0_apply (iblk0 (F := Ideal) V c 1 t) (iblk0 (F := Ideal) V c 0 t) (iblk0 (F := Ideal) V c 2 t)
    (iblk0 (F := Ideal) V c 3 t) (iblk0 (F := Ideal) V c 4 t) (iblk0 (F := Ideal) V c 5 t) p q).trans ?_
  rw [View.read_apply]
  show _ = layerOut0 V c (((cfg0.win 6).blk t).view.emb (ix2 p q))
  rw [outEmb0 t p q ⟨2000 * t.val + p.val, hlt⟩ rfl]
  exact Cert.Spec.sageRow_congr
    (funext fun k => aggBlock0 V c t p k ⟨2000 * t.val + p.val, hlt⟩ rfl)
    (degBlock0 V c t p ⟨2000 * t.val + p.val, hlt⟩ rfl)
    (funext fun k => featBlock0 V c t p k ⟨2000 * t.val + p.val, hlt⟩ rfl)
    (funext fun k => funext fun q' => wlBlock0 V c t k q')
    (funext fun k => funext fun q' => wrBlock0 V c t k q')
    (funext fun q' => biasBlock0 V c t q') q

/-- An index of the output array is in point `t`'s block iff each coordinate is in the block's range on its axis. -/
theorem memBlk0 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v22).slice (win0_6.rect t)).set ↔ _
  rw [View.set_slice_whole, Rect.mem_set_unit]
  exact Iff.rfl

/-- Every index of the output array is in the block of the point its row falls in. -/
theorem cover0 (i : S50000x256.Idx) :
    ∃ t : Fin cfg0.N, (cfg0.win 6).flush t = true ∧ i ∈ ((cfg0.win 6).blk t).view.set := by
  have hN : grid0.N = 25 := N_0
  have hi0 : (i 0).val < 50000 := (i 0).isLt
  have hi1 : (i 1).val < 256 := (i 1).isLt
  have ht : (i 0).val / 2000 < grid0.N := by omega
  refine ⟨⟨(i 0).val / 2000, ht⟩, flush0_6 _, ?_⟩
  rw [memBlk0]
  obtain ⟨-, -, -, -, -, -, -, -, -, -, -, -, e0, e1⟩ := blockIdx0 ⟨(i 0).val / 2000, ht⟩
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    rw [e1]
    omega

/-- The first layer's output array after the region. -/
theorem final0 (c : Dev nD) :
    (dat0 (F := Ideal) V c).arrAt 6 cfg0.N = fun i : S50000x256.Idx => Cert.Spec.sageRow 128
      (fun k => (V c main_v20 : S50000x128.Idx → EReal) (ix2 (i 0 : Fin 50000) k))
      ((V c main_v8 : S50000x1.Idx → EReal) (ix2 (i 0 : Fin 50000) (0 : Fin 1)))
      (fun k => (V c main_arg0 : S50000x128.Idx → EReal) (ix2 (i 0 : Fin 50000) k))
      (fun k q => (V c main_v9 : S128x256.Idx → EReal) (ix2 k q))
      (fun k q => (V c main_v10 : S128x256.Idx → EReal) (ix2 k q))
      (fun q => (V c main_v21 : S1x256.Idx → EReal) (ix2 (0 : Fin 1) q)) (i 1 : Fin 256) := by
  exact (dat0 (F := Ideal) V c).arrAt_eq_of_cover 6 (layerOut0 V c) (fun t _ => flushed0 V c t) cover0

end Cert.KernelIdeal.Reg

end
-- ==== Proof.Pay1.lean ====
/-
  The second graph-convolution kernel's stored block, read at an entry: the body's one payload at `(p, q)` is the layer's
  row function of row `p` of its loaded blocks (the changes of float format are the identity on the extended reals, each
  matrix product into a zero accumulator is the plain sum over the contracted axis).
-/
import proofs.«120245_j26336739459481_1_alg».proof.Proof.Gen.KernelIdeal.Skeleton
import proofs.«120245_j26336739459481_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«120245_j26336739459481_1_alg».proof.Proof.LibColumnBroadcast

noncomputable section

namespace Cert.KernelIdeal.Pay

open Idealize.ShloMosaic Idealize.ShloMosaic.ValueIdx Cert.KernelIdeal Cert.KernelIdeal.Gen

/-- Row axis of the left operand's index in the second layer's product: the output's row. -/
theorem lhs_mm1_0 (i : S2000x256.Idx) (c : dot_S2000x256_S256x256_S2000x256_1_0_0_1_n_n.contr.Idx) :
    (dot_S2000x256_S256x256_S2000x256_1_0_0_1_n_n.lhsIdx i c 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Column axis of the left operand's index: the contracted coordinate. -/
theorem lhs_mm1_1 (i : S2000x256.Idx) (c : dot_S2000x256_S256x256_S2000x256_1_0_0_1_n_n.contr.Idx) :
    (dot_S2000x256_S256x256_S2000x256_1_0_0_1_n_n.lhsIdx i c 1).val = (c ⟨0, by decide⟩).val :=
  dot_S2000x256_S256x256_S2000x256_1_0_0_1_n_n.lhsIdx_val_of_single rfl i c
/-- Row axis of the right operand's index: the contracted coordinate. -/
theorem rhs_mm1_0 (i : S2000x256.Idx) (c : dot_S2000x256_S256x256_S2000x256_1_0_0_1_n_n.contr.Idx) :
    (dot_S2000x256_S256x256_S2000x256_1_0_0_1_n_n.rhsIdx i c 0).val = (c ⟨0, by decide⟩).val :=
  dot_S2000x256_S256x256_S2000x256_1_0_0_1_n_n.rhsIdx_val_of_single rfl i c
/-- Column axis of the right operand's index: the output's column. -/
theorem rhs_mm1_1 (i : S2000x256.Idx) (c : dot_S2000x256_S256x256_S2000x256_1_0_0_1_n_n.contr.Idx) :
    (dot_S2000x256_S256x256_S2000x256_1_0_0_1_n_n.rhsIdx i c 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A `[2000,256] × [256,256]` product into the zero accumulator, at entry `(p, q)`: the sum over the contracted
    coordinate `k` of `l[p,k] · r[k,q]`. -/
theorem mm1_apply (l : FVec Ideal S2000x256 .bf16) (r : FVec Ideal S256x256 .bf16) (p : Fin 2000) (q : Fin 256) :
    matmul (F := Ideal) dot_S2000x256_S256x256_S2000x256_1_0_0_1_n_n none l r (constant S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_mm1_0 _ _).trans hk
    | ⟨1, _⟩ => exact rhs_mm1_1 _ _)
  rw [el, er]

/-- Entry `(p, q)` of the block the second layer's kernel stores. -/
theorem pay1_apply (v0 : Vec Ideal S2000x1 .f32) (v4 : Vec Ideal S2000x256 .f32) (v9 : Vec Ideal S2000x256 .f32)
    (v12 : Vec Ideal S256x256 .f32) (v15 : Vec Ideal S256x256 .f32) (v21 : Vec Ideal S1x256 .f32) (p : Fin 2000) (q : Fin 256) :
    k1_pay1 (F := Ideal) v0 v4 v9 v12 v15 v21 (ix2 p q)
      = Cert.Spec.sageRow 256 (fun k => v4 (ix2 p k)) (v0 (ix2 p (0 : Fin 1))) (fun k => v9 (ix2 p k))
          (fun k q => v12 (ix2 k q)) (fun k q => v15 (ix2 k q)) (fun q => v21 (ix2 (0 : Fin 1) q)) q := by
  unfold Gen.k1_pay1
  simp only [maximumf_apply, addf_apply, broadcast_apply, mm1_apply, truncf_apply, divf_apply,
    shapeCast_self, broadcastTo_1b_ab_apply, broadcastTo_a1_ab_apply, Ideal.ofBits_def]
  rfl

end Cert.KernelIdeal.Pay

end
-- ==== Proof.Reg1.lean ====
/-
  The second graph-convolution region, as one whole-array function. The grid has 25 points; point `t` reads rows
  `2000·t … 2000·t + 1999` of the aggregated features, the degree column and the first layer's output, the whole weight
  and bias arrays, and writes the same rows of the output. So the output array after the region holds, at `(r, q)`, the
  layer's row function of row `r` of the node-indexed arrays as the region found them.
-/
import proofs.«120245_j26336739459481_1_alg».proof.Proof.Gen.KernelIdeal.Frame
import proofs.«120245_j26336739459481_1_alg».proof.Proof.Pay1
import Idealize.ShloMosaic.Lib.Pipeline.Value

noncomputable section

set_option maxRecDepth 16384

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered: a parameter
variable (V : (c : Dev nD) → (b : Ref sig .tc) → Buf (Elt Ideal) ((c : Thread nD τ).loc b))

/-- The zero offsets of a rank-2 rectangle, as the constant function. -/
theorem zeroOff1 : (![0, 0] : Fin 2 → Nat) = fun _ => 0 := funext fun a => by
  match a with
  | ⟨0, _⟩ => rfl
  | ⟨1, _⟩ => rfl

/-- The block index of every window at grid point `t`: the node-indexed windows sit at row block `t`, the weight and
    bias windows at the one block of their arrays. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `(p, k)` of the second layer's aggregated-feature block at point `t` is entry `(2000·t + p, k)` of the array. -/
theorem aggBlock1 (c : Dev nD) (t : Fin cfg1.N) (p : Fin 2000) (k : Fin 256) (r : Fin 50000)
    (hr : r.val = 2000 * t.val + p.val) :
    (iblk1 (F := Ideal) V c 0 t : Vec Ideal S2000x256 .f32) (ix2 p k) = (V c main_v34 : S50000x256.Idx → EReal) (ix2 r k) := by
  obtain ⟨e0, e1, -⟩ := blockIdx1 t
  unfold iblk1
  rw [View.read_apply]
  show V c main_v34 _ = V c main_v34 _
  refine congrArg (V c main_v34) (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Entry `(p, 0)` of the degree block at point `t` is entry `(2000·t + p, 0)` of the array. -/
theorem degBlock1 (c : Dev nD) (t : Fin cfg1.N) (p : Fin 2000) (r : Fin 50000)
    (hr : r.val = 2000 * t.val + p.val) :
    (iblk1 (F := Ideal) V c 1 t : Vec Ideal S2000x1 .f32) (ix2 p (0 : Fin 1)) = (V c main_v8 : S50000x1.Idx → EReal) (ix2 r (0 : Fin 1)) := by
  obtain ⟨-, -, e0, e1, -⟩ := blockIdx1 t
  unfold iblk1
  rw [View.read_apply]
  show V c main_v8 _ = V c main_v8 _
  refine congrArg (V c main_v8) (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Entry `(p, k)` of the block of the first layer's output at point `t` is entry `(2000·t + p, k)` of the array. -/
theorem featBlock1 (c : Dev nD) (t : Fin cfg1.N) (p : Fin 2000) (k : Fin 256) (r : Fin 50000)
    (hr : r.val = 2000 * t.val + p.val) :
    (iblk1 (F := Ideal) V c 2 t : Vec Ideal S2000x256 .f32) (ix2 p k) = (V c main_v22 : S50000x256.Idx → EReal) (ix2 r k) := by
  obtain ⟨-, -, -, -, e0, e1, -⟩ := blockIdx1 t
  unfold iblk1
  rw [View.read_apply]
  show V c main_v22 _ = V c main_v22 _
  refine congrArg (V c main_v22) (funext fun a => Fin.ext ?_)
  match a with
  | ⟨0, _⟩ => show win1_2.index t (0 : Fin 2) * 2000 + 1 * p.val = r.val; rw [e0, hr]; omega
  | ⟨1, _⟩ => show win1_2.index t (1 : Fin 2) * 256 + 1 * k.val = k.val; rw [e1]; omega

/-- The block of the weights applied to the mean row is, at every point, the whole array. -/
theorem wlBlock1 (c : Dev nD) (t : Fin cfg1.N) (k : Fin 256) (q : Fin 256) :
    (iblk1 (F := Ideal) V c 3 t : Vec Ideal S256x256 .f32) (ix2 k q) = (V c main_v23 : S256x256.Idx → EReal) (ix2 k q) := by
  obtain ⟨-, -, -, -, -, -, e0, e1, -⟩ := blockIdx1 t
  unfold iblk1
  rw [View.read_apply]
  show V c main_v23 _ = V c main_v23 _
  refine congrArg (V c main_v23) (funext fun a => Fin.ext ?_)
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- The block of the weights applied to the node's own row is, at every point, the whole array. -/
theorem wrBlock1 (c : Dev nD) (t : Fin cfg1.N) (k : Fin 256) (q : Fin 256) :
    (iblk1 (F := Ideal) V c 4 t : Vec Ideal S256x256 .f32) (ix2 k q) = (V c main_v24 : S256x256.Idx → EReal) (ix2 k q) := by
  obtain ⟨-, -, -, -, -, -, -, -, e0, e1, -⟩ := blockIdx1 t
  unfold iblk1
  rw [View.read_apply]
  show V c main_v24 _ = V c main_v24 _
  refine congrArg (V c main_v24) (funext fun a => Fin.ext ?_)
  match a with
  | ⟨0, _⟩ => show win1_4.index t (0 : Fin 2) * 256 + 1 * k.val = k.val; rw [e0]; omega
  | ⟨1, _⟩ => show win1_4.index t (1 : Fin 2) * 256 + 1 * q.val = q.val; rw [e1]; omega

/-- The bias block is, at every point, the whole array. -/
theorem biasBlock1 (c : Dev nD) (t : Fin cfg1.N) (q : Fin 256) :
    (iblk1 (F := Ideal) V c 5 t : Vec Ideal S1x256 .f32) (ix2 (0 : Fin 1) q) = (V c main_v35 : S1x256.Idx → EReal) (ix2 (0 : Fin 1) q) := by
  obtain ⟨-, -, -, -, -, -, -, -, -, -, e0, e1, -⟩ := blockIdx1 t
  unfold iblk1
  rw [View.read_apply]
  show V c main_v35 _ = V c main_v35 _
  refine congrArg (V c main_v35) (funext fun a => Fin.ext ?_)
  match a with
  | ⟨0, _⟩ => show win1_5.index t (0 : Fin 2) * 1 + 1 * 0 = 0; rw [e0]
  | ⟨1, _⟩ => show win1_5.index t (1 : Fin 2) * 256 + 1 * q.val = q.val; rw [e1]; omega

/-- The second layer's output as one function of the arrays the region finds: entry `(r, q)` is the row function of row `r`
    of the aggregated features, the degree column and the first layer's output. -/
abbrev layerOut1 (c : Dev nD) : S50000x256.Idx → EReal := fun i => Cert.Spec.sageRow 256
      (fun k => (V c main_v34 : S50000x256.Idx → EReal) (ix2 (i 0 : Fin 50000) k))
      ((V c main_v8 : S50000x1.Idx → EReal) (ix2 (i 0 : Fin 50000) (0 : Fin 1)))
      (fun k => (V c main_v22 : S50000x256.Idx → EReal) (ix2 (i 0 : Fin 50000) k))
      (fun k q => (V c main_v23 : S256x256.Idx → EReal) (ix2 k q))
      (fun k q => (V c main_v24 : S256x256.Idx → EReal) (ix2 k q))
      (fun q => (V c main_v35 : S1x256.Idx → EReal) (ix2 (0 : Fin 1) q)) (i 1 : Fin 256)

/-- Entry `(p, q)` of the output block at point `t` sits at `(2000·t + p, q)` of the output array. -/
theorem outEmb1 (t : Fin cfg1.N) (p : Fin 2000) (q : Fin 256) (r : Fin 50000) (hr : r.val = 2000 * t.val + p.val) :
    (((cfg1.win 6).blk t).view.emb (ix2 p q) : S50000x256.Idx) = ix2 r q := by
  obtain ⟨-, -, -, -, -, -, -, -, -, -, -, -, e0, e1⟩ := blockIdx1 t
  refine funext fun a => Fin.ext ?_
  match a with
  | ⟨0, _⟩ => show win1_6.index t (0 : Fin 2) * 2000 + 1 * p.val = r.val; rw [e0, hr]; omega
  | ⟨1, _⟩ => show win1_6.index t (1 : Fin 2) * 256 + 1 * q.val = q.val; rw [e1]; omega

/-- What point `t` writes back is block `t` of the layer's output function. -/
theorem flushed1 (c : Dev nD) (t : Fin cfg1.N) :
    (dat1 (F := Ideal) V c).flushed 6 t = ((cfg1.win 6).blk t).view.read (Elt Ideal) (layerOut1 V c) := by
  show (cfg1.win 6).cut (grid1.coords t) ((dat1 (F := Ideal) V c).after 6 t) = _
  rw [after1_6]
  unfold out1_6
  rw [View.canon_unit_zero zeroOff1]
  simp only [View.ld_unit_zero (S := S2000x1) zeroOff1, View.ld_unit_zero (S := S2000x256) zeroOff1,
    View.ld_unit_zero (S := S256x256) zeroOff1, View.ld_unit_zero (S := S1x256) zeroOff1]
  funext j
  obtain ⟨p, q, rfl⟩ : ∃ (p : Fin 2000) (q : Fin 256), j = ix2 p q := ⟨j 0, j 1, eq_ix2 j⟩
  have hlt : 2000 * t.val + p.val < 50000 := by
    have hN : grid1.N = 25 := N_1
    have ht : t.val < grid1.N := t.isLt
    have hp : p.val < 2000 := p.isLt
    omega
  refine (Pay.pay1_apply (iblk1 (F := Ideal) V c 1 t) (iblk1 (F := Ideal) V c 0 t) (iblk1 (F := Ideal) V c 2 t)
    (iblk1 (F := Ideal) V c 3 t) (iblk1 (F := Ideal) V c 4 t) (iblk1 (F := Ideal) V c 5 t) p q).trans ?_
  rw [View.read_apply]
  show _ = layerOut1 V c (((cfg1.win 6).blk t).view.emb (ix2 p q))
  rw [outEmb1 t p q ⟨2000 * t.val + p.val, hlt⟩ rfl]
  exact Cert.Spec.sageRow_congr
    (funext fun k => aggBlock1 V c t p k ⟨2000 * t.val + p.val, hlt⟩ rfl)
    (degBlock1 V c t p ⟨2000 * t.val + p.val, hlt⟩ rfl)
    (funext fun k => featBlock1 V c t p k ⟨2000 * t.val + p.val, hlt⟩ rfl)
    (funext fun k => funext fun q' => wlBlock1 V c t k q')
    (funext fun k => funext fun q' => wrBlock1 V c t k q')
    (funext fun q' => biasBlock1 V c t q') q

/-- An index of the output array is in point `t`'s block iff each coordinate is in the block's range on its axis. -/
theorem memBlk1 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v36).slice (win1_6.rect t)).set ↔ _
  rw [View.set_slice_whole, Rect.mem_set_unit]
  exact Iff.rfl

/-- Every index of the output array is in the block of the point its row falls in. -/
theorem cover1 (i : S50000x256.Idx) :
    ∃ t : Fin cfg1.N, (cfg1.win 6).flush t = true ∧ i ∈ ((cfg1.win 6).blk t).view.set := by
  have hN : grid1.N = 25 := N_1
  have hi0 : (i 0).val < 50000 := (i 0).isLt
  have hi1 : (i 1).val < 256 := (i 1).isLt
  have ht : (i 0).val / 2000 < grid1.N := by omega
  refine ⟨⟨(i 0).val / 2000, ht⟩, flush1_6 _, ?_⟩
  rw [memBlk1]
  obtain ⟨-, -, -, -, -, -, -, -, -, -, -, -, e0, e1⟩ := blockIdx1 ⟨(i 0).val / 2000, ht⟩
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    rw [e1]
    omega

/-- The second layer's output array after the region. -/
theorem final1 (c : Dev nD) :
    (dat1 (F := Ideal) V c).arrAt 6 cfg1.N = fun i : S50000x256.Idx => Cert.Spec.sageRow 256
      (fun k => (V c main_v34 : S50000x256.Idx → EReal) (ix2 (i 0 : Fin 50000) k))
      ((V c main_v8 : S50000x1.Idx → EReal) (ix2 (i 0 : Fin 50000) (0 : Fin 1)))
      (fun k => (V c main_v22 : S50000x256.Idx → EReal) (ix2 (i 0 : Fin 50000) k))
      (fun k q => (V c main_v23 : S256x256.Idx → EReal) (ix2 k q))
      (fun k q => (V c main_v24 : S256x256.Idx → EReal) (ix2 k q))
      (fun q => (V c main_v35 : S1x256.Idx → EReal) (ix2 (0 : Fin 1) q)) (i 1 : Fin 256) := by
  exact (dat1 (F := Ideal) V c).arrAt_eq_of_cover 6 (layerOut1 V c) (fun t _ => flushed1 V c t) cover1

end Cert.KernelIdeal.Reg

end
-- ==== Proof.Pay2.lean ====
/-
  The decoder kernel's stored block, read at an entry: the body's one payload at `(p, q)` is the decoder's row function
  of row `p` of the loaded feature block (three matrix products into zero accumulators, each the plain sum over its
  contracted axis; the changes of float format the identity on the extended reals).
-/
import proofs.«120245_j26336739459481_1_alg».proof.Proof.Gen.KernelIdeal.Skeleton
import proofs.«120245_j26336739459481_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- Axis 0 of the left operand's index of the `[2000,256] · [256,128]` product is the output's row. -/
theorem mm2a_lhs_0 (i : S2000x128.Idx) (c : dot_S2000x256_S256x128_S2000x128_1_0_0_1_n_n.contr.Idx) :
    (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- Axis 1 of the left operand's index of the `[2000,256] · [256,128]` product is the contracted coordinate. -/
theorem mm2a_lhs_1 (i : S2000x128.Idx) (c : dot_S2000x256_S256x128_S2000x128_1_0_0_1_n_n.contr.Idx) :
    (dot_S2000x256_S256x128_S2000x128_1_0_0_1_n_n.lhsIdx i c 1).val = (c ⟨0, by decide⟩).val :=
  dot_S2000x256_S256x128_S2000x128_1_0_0_1_n_n.lhsIdx_val_of_single rfl i c
/-- Axis 0 of the right operand's index of the `[2000,256] · [256,128]` product is the contracted coordinate. -/
theorem mm2a_rhs_0 (i : S2000x128.Idx) (c : dot_S2000x256_S256x128_S2000x128_1_0_0_1_n_n.contr.Idx) :
    (dot_S2000x256_S256x128_S2000x128_1_0_0_1_n_n.rhsIdx i c 0).val = (c ⟨0, by decide⟩).val :=
  dot_S2000x256_S256x128_S2000x128_1_0_0_1_n_n.rhsIdx_val_of_single rfl i c
/-- Axis 1 of the right operand's index of the `[2000,256] · [256,128]` product is the output's column. -/
theorem mm2a_rhs_1 (i : S2000x128.Idx) (c : dot_S2000x256_S256x128_S2000x128_1_0_0_1_n_n.contr.Idx) :
    (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The `[2000,256] · [256,128]` matrix product into the zero accumulator, read at `(p, q)`: the plain sum
    `Σ_k l[p,k] · r[k,q]` over the 256 contracted coordinates. -/
theorem mm2a_apply (l : FVec Ideal S2000x256 .bf16) (r : FVec Ideal S256x128 .bf16) (p : Fin 2000) (q : Fin 128) :
    matmul (F := Ideal) dot_S2000x256_S256x128_S2000x128_1_0_0_1_n_n none l r (constant S2000x128 .f32 0x00000000#32) (ix2 p q)
      = ∑ k : Fin 256, l (ix2 p k) * r (ix2 k q) := by
  refine (Ideal.matmul_constant_zero_apply dot_S2000x256_S256x128_S2000x128_1_0_0_1_n_n none l r (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact mm2a_lhs_0 _ _
    | ⟨1, _⟩ => exact (mm2a_lhs_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (mm2a_rhs_0 _ _).trans hk
    | ⟨1, _⟩ => exact mm2a_rhs_1 _ _)
  rw [el, er]

/-- Axis 0 of the left operand's index of the `[2000,128] · [128,64]` product is the output's row. -/
theorem mm2b_lhs_0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- Axis 1 of the left operand's index of the `[2000,128] · [128,64]` product is the contracted coordinate. -/
theorem mm2b_lhs_1 (i : S2000x64.Idx) (c : dot_S2000x128_S128x64_S2000x64_1_0_0_1_n_n.contr.Idx) :
    (dot_S2000x128_S128x64_S2000x64_1_0_0_1_n_n.lhsIdx i c 1).val = (c ⟨0, by decide⟩).val :=
  dot_S2000x128_S128x64_S2000x64_1_0_0_1_n_n.lhsIdx_val_of_single rfl i c
/-- Axis 0 of the right operand's index of the `[2000,128] · [128,64]` product is the contracted coordinate. -/
theorem mm2b_rhs_0 (i : S2000x64.Idx) (c : dot_S2000x128_S128x64_S2000x64_1_0_0_1_n_n.contr.Idx) :
    (dot_S2000x128_S128x64_S2000x64_1_0_0_1_n_n.rhsIdx i c 0).val = (c ⟨0, by decide⟩).val :=
  dot_S2000x128_S128x64_S2000x64_1_0_0_1_n_n.rhsIdx_val_of_single rfl i c
/-- Axis 1 of the right operand's index of the `[2000,128] · [128,64]` product is the output's column. -/
theorem mm2b_rhs_1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The `[2000,128] · [128,64]` matrix product into the zero accumulator, read at `(p, q)`: the plain sum
    `Σ_k l[p,k] · r[k,q]` over the 128 contracted coordinates. -/
theorem mm2b_apply (l : FVec Ideal S2000x128 .bf16) (r : FVec Ideal S128x64 .bf16) (p : Fin 2000) (q : Fin 64) :
    matmul (F := Ideal) dot_S2000x128_S128x64_S2000x64_1_0_0_1_n_n none l r (constant S2000x64 .f32 0x00000000#32) (ix2 p q)
      = ∑ k : Fin 128, l (ix2 p k) * r (ix2 k q) := by
  refine (Ideal.matmul_constant_zero_apply dot_S2000x128_S128x64_S2000x64_1_0_0_1_n_n none l r (ix2 p q)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact mm2b_lhs_0 _ _
    | ⟨1, _⟩ => exact (mm2b_lhs_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (mm2b_rhs_0 _ _).trans hk
    | ⟨1, _⟩ => exact mm2b_rhs_1 _ _)
  rw [el, er]

/-- Axis 0 of the left operand's index of the `[2000,64] · [64,10]` product is the output's row. -/
theorem mm2c_lhs_0 (i : S2000x10.Idx) (c : dot_S2000x64_S64x10_S2000x10_1_0_0_1_n_n.contr.Idx) :
    (dot_S2000x64_S64x10_S2000x10_1_0_0_1_n_n.lhsIdx i c 0).val = (i 0).val := by
  unfold DotDims.lhsIdx
  rw [dif_neg (show ¬(0 : Fin S2000x64.rank) ∈ dot_S2000x64_S64x10_S2000x10_1_0_0_1_n_n.lhsBatch by decide), dif_pos (show (0 : Fin S2000x64.rank) ∈ dot_S2000x64_S64x10_S2000x10_1_0_0_1_n_n.lhsNonContracting by decide)]
  rfl
/-- Axis 1 of the left operand's index of the `[2000,64] · [64,10]` product is the contracted coordinate. -/
theorem mm2c_lhs_1 (i : S2000x10.Idx) (c : dot_S2000x64_S64x10_S2000x10_1_0_0_1_n_n.contr.Idx) :
    (dot_S2000x64_S64x10_S2000x10_1_0_0_1_n_n.lhsIdx i c 1).val = (c ⟨0, by decide⟩).val :=
  dot_S2000x64_S64x10_S2000x10_1_0_0_1_n_n.lhsIdx_val_of_single rfl i c
/-- Axis 0 of the right operand's index of the `[2000,64] · [64,10]` product is the contracted coordinate. -/
theorem mm2c_rhs_0 (i : S2000x10.Idx) (c : dot_S2000x64_S64x10_S2000x10_1_0_0_1_n_n.contr.Idx) :
    (dot_S2000x64_S64x10_S2000x10_1_0_0_1_n_n.rhsIdx i c 0).val = (c ⟨0, by decide⟩).val :=
  dot_S2000x64_S64x10_S2000x10_1_0_0_1_n_n.rhsIdx_val_of_single rfl i c
/-- Axis 1 of the right operand's index of the `[2000,64] · [64,10]` product is the output's column. -/
theorem mm2c_rhs_1 (i : S2000x10.Idx) (c : dot_S2000x64_S64x10_S2000x10_1_0_0_1_n_n.contr.Idx) :
    (dot_S2000x64_S64x10_S2000x10_1_0_0_1_n_n.rhsIdx i c 1).val = (i 1).val := by
  unfold DotDims.rhsIdx
  rw [dif_neg (show ¬(1 : Fin S64x10.rank) ∈ dot_S2000x64_S64x10_S2000x10_1_0_0_1_n_n.rhsBatch by decide), dif_pos (show (1 : Fin S64x10.rank) ∈ dot_S2000x64_S64x10_S2000x10_1_0_0_1_n_n.rhsNonContracting by decide)]
  rfl

/-- The `[2000,64] · [64,10]` matrix product into the zero accumulator, read at `(p, q)`: the plain sum
    `Σ_k l[p,k] · r[k,q]` over the 64 contracted coordinates. -/
theorem mm2c_apply (l : FVec Ideal S2000x64 .bf16) (r : FVec Ideal S64x10 .bf16) (p : Fin 2000) (q : Fin 10) :
    matmul (F := Ideal) dot_S2000x64_S64x10_S2000x10_1_0_0_1_n_n none l r (constant S2000x10 .f32 0x00000000#32) (ix2 p q)
      = ∑ k : Fin 64, l (ix2 p k) * r (ix2 k q) := by
  refine (Ideal.matmul_constant_zero_apply dot_S2000x64_S64x10_S2000x10_1_0_0_1_n_n none l r (ix2 p q)).trans ?_
  rw [← Equiv.sum_comp (ValueIdx.contrEquiv1 dot_S2000x64_S64x10_S2000x10_1_0_0_1_n_n 64 rfl rfl).symm]
  refine Finset.sum_congr rfl fun k _ => ?_
  have hk := ValueIdx.contrEquiv1_symm_val dot_S2000x64_S64x10_S2000x10_1_0_0_1_n_n 64 rfl rfl k
  have el : dot_S2000x64_S64x10_S2000x10_1_0_0_1_n_n.lhsIdx (ix2 p q) ((ValueIdx.contrEquiv1 dot_S2000x64_S64x10_S2000x10_1_0_0_1_n_n 64 rfl rfl).symm k) = ix2 p k := funext fun a => Fin.ext (by
    match a with
    | ⟨0, _⟩ => exact mm2c_lhs_0 _ _
    | ⟨1, _⟩ => exact (mm2c_lhs_1 _ _).trans hk)
  have er : dot_S2000x64_S64x10_S2000x10_1_0_0_1_n_n.rhsIdx (ix2 p q) ((ValueIdx.contrEquiv1 dot_S2000x64_S64x10_S2000x10_1_0_0_1_n_n 64 rfl rfl).symm k) = ix2 k q := funext fun a => Fin.ext (by
    match a with
    | ⟨0, _⟩ => exact (mm2c_rhs_0 _ _).trans hk
    | ⟨1, _⟩ => exact mm2c_rhs_1 _ _)
  rw [el, er]

/-- A `[1, b]` bias row, cast to its own shape and broadcast over the 2000 rows, read at `(p, q)`: the row's entry `q`. -/
theorem bias2_apply {α : Type} {b : ℕ} (v : (⟨2, ![1, b]⟩ : Shape).Idx → α) (h₁ : (⟨2, ![1, b]⟩ : Shape).ShapeCasts ⟨2, ![1, b]⟩)
    (h₂ : (⟨2, ![1, b]⟩ : Shape).Broadcasts ⟨2, ![2000, b]⟩) (p : Fin 2000) (q : Fin b) :
    broadcastTo ⟨2, ![2000, b]⟩ (shapeCast ⟨2, ![1, b]⟩ v h₁) h₂ (ix2 p q) = v (ix2 (0 : Fin 1) q) := by
  rw [shapeCast_self]
  exact broadcastTo_1b_ab_apply v h₂ p q

/-- The maximum against the broadcast float word of `0.0`, read at an index: the clamp of the entry below at zero. -/
theorem relu2_apply {s : Shape} (a : FVec Ideal s .f32) (i : s.Idx) :
    maximumf a (broadcast s (Scalar.ofBits (F := Ideal) .f32 0x00000000#32)) i = max (a i) Cert.Spec.zero32 := rfl

/-- One affine stage `256 → 128` of the stored block, read at `(p, q)`: with the operands narrowed (the identity on the
    extended reals), the weights cast to their own shape and the bias row broadcast over the rows, it is
    `Σ_k x[p,k] · W[k,q] + b[q]`. -/
theorem aff2a_apply (x : FVec Ideal S2000x256 .f32) (W : Vec Ideal S256x128 .f32) (b : Vec Ideal S1x128 .f32) (p : Fin 2000) (q : Fin 128) :
    addf (matmul (F := Ideal) dot_S2000x256_S256x128_S2000x128_1_0_0_1_n_n none (truncf .bf16 x bitsLt_bf16_f32)
        (truncf .bf16 (shapeCast S256x128 W shapeCasts_S256x128_S256x128) bitsLt_bf16_f32) (constant S2000x128 .f32 0x00000000#32))
      (broadcastTo S2000x128 (shapeCast S1x128 b shapeCasts_S1x128_S1x128) broadcasts_S1x128_S2000x128) (ix2 p q)
      = Cert.Spec.affRow (fun k => x (ix2 p k)) (fun k q => W (ix2 k q)) (fun q => b (ix2 (0 : Fin 1) q)) q := by
  refine (addf_apply _ _ (ix2 p q)).trans ?_
  unfold Cert.Spec.affRow
  refine congrArg₂ (· + ·) ?_ (bias2_apply b shapeCasts_S1x128_S1x128 broadcasts_S1x128_S2000x128 p q)
  refine (mm2a_apply _ _ p q).trans ?_
  refine Finset.sum_congr rfl fun k _ => ?_
  rw [shapeCast_self]
  rfl

/-- One affine stage `128 → 64` of the stored block, read at `(p, q)`: with the operands narrowed (the identity on the
    extended reals), the weights cast to their own shape and the bias row broadcast over the rows, it is
    `Σ_k x[p,k] · W[k,q] + b[q]`. -/
theorem aff2b_apply (x : FVec Ideal S2000x128 .f32) (W : Vec Ideal S128x64 .f32) (b : Vec Ideal S1x64 .f32) (p : Fin 2000) (q : Fin 64) :
    addf (matmul (F := Ideal) dot_S2000x128_S128x64_S2000x64_1_0_0_1_n_n none (truncf .bf16 x bitsLt_bf16_f32)
        (truncf .bf16 (shapeCast S128x64 W shapeCasts_S128x64_S128x64) bitsLt_bf16_f32) (constant S2000x64 .f32 0x00000000#32))
      (broadcastTo S2000x64 (shapeCast S1x64 b shapeCasts_S1x64_S1x64) broadcasts_S1x64_S2000x64) (ix2 p q)
      = Cert.Spec.affRow (fun k => x (ix2 p k)) (fun k q => W (ix2 k q)) (fun q => b (ix2 (0 : Fin 1) q)) q := by
  refine (addf_apply _ _ (ix2 p q)).trans ?_
  unfold Cert.Spec.affRow
  refine congrArg₂ (· + ·) ?_ (bias2_apply b shapeCasts_S1x64_S1x64 broadcasts_S1x64_S2000x64 p q)
  refine (mm2b_apply _ _ p q).trans ?_
  refine Finset.sum_congr rfl fun k _ => ?_
  rw [shapeCast_self]
  rfl

/-- One affine stage `64 → 10` of the stored block, read at `(p, q)`: with the operands narrowed (the identity on the
    extended reals), the weights cast to their own shape and the bias row broadcast over the rows, it is
    `Σ_k x[p,k] · W[k,q] + b[q]`. -/
theorem aff2c_apply (x : FVec Ideal S2000x64 .f32) (W : Vec Ideal S64x10 .f32) (b : Vec Ideal S1x10 .f32) (p : Fin 2000) (q : Fin 10) :
    addf (matmul (F := Ideal) dot_S2000x64_S64x10_S2000x10_1_0_0_1_n_n none (truncf .bf16 x bitsLt_bf16_f32)
        (truncf .bf16 (shapeCast S64x10 W shapeCasts_S64x10_S64x10) bitsLt_bf16_f32) (constant S2000x10 .f32 0x00000000#32))
      (broadcastTo S2000x10 (shapeCast S1x10 b shapeCasts_S1x10_S1x10) broadcasts_S1x10_S2000x10) (ix2 p q)
      = Cert.Spec.affRow (fun k => x (ix2 p k)) (fun k q => W (ix2 k q)) (fun q => b (ix2 (0 : Fin 1) q)) q := by
  refine (addf_apply _ _ (ix2 p q)).trans ?_
  unfold Cert.Spec.affRow
  refine congrArg₂ (· + ·) ?_ (bias2_apply b shapeCasts_S1x10_S1x10 broadcasts_S1x10_S2000x10 p q)
  refine (mm2c_apply _ _ p q).trans ?_
  refine Finset.sum_congr rfl fun k _ => ?_
  rw [shapeCast_self]
  rfl

/-- Entry `(p, q)` of the block the decoder kernel stores. -/
theorem pay2_apply (v0 : Vec Ideal S2000x256 .f32) (v3 : Vec Ideal S256x128 .f32) (v7 : Vec Ideal S1x128 .f32)
    (v14 : Vec Ideal S128x64 .f32) (v18 : Vec Ideal S1x64 .f32) (v25 : Vec Ideal S64x10 .f32) (v29 : Vec Ideal S1x10 .f32)
    (p : Fin 2000) (q : Fin 10) :
    k2_pay1 (F := Ideal) v0 v3 v7 v14 v18 v25 v29 (ix2 p q)
      = Cert.Spec.decRow (fun k => v0 (ix2 p k)) (fun k q => v3 (ix2 k q)) (fun q => v7 (ix2 (0 : Fin 1) q))
          (fun k q => v14 (ix2 k q)) (fun q => v18 (ix2 (0 : Fin 1) q)) (fun k q => v25 (ix2 k q)) (fun q => v29 (ix2 (0 : Fin 1) q)) q := by
  unfold k2_pay1
  refine (aff2c_apply _ v25 v29 p q).trans ?_
  unfold Cert.Spec.decRow
  refine congrArg (fun h => Cert.Spec.affRow h (fun k q => v25 (ix2 k q)) (fun q => v29 (ix2 (0 : Fin 1) q)) q) (funext fun j => ?_)
  refine (relu2_apply _ (ix2 p j)).trans ?_
  refine congrArg (fun t => max t Cert.Spec.zero32) ?_
  refine (aff2b_apply _ v14 v18 p j).trans ?_
  refine congrArg (fun h => Cert.Spec.affRow h (fun k q => v14 (ix2 k q)) (fun q => v18 (ix2 (0 : Fin 1) q)) j) (funext fun j' => ?_)
  refine (relu2_apply _ (ix2 p j')).trans ?_
  refine congrArg (fun t => max t Cert.Spec.zero32) ?_
  refine (aff2a_apply _ v3 v7 p j').trans ?_
  rw [shapeCast_self]

end Cert.KernelIdeal.Pay

end
-- ==== Proof.Reg2.lean ====
/-
  The decoder region, as one whole-array function. The grid has 25 points; point `t` reads rows
  `2000·t … 2000·t + 1999` of the feature array and the whole of the three weight and three bias arrays, and writes the
  same rows of the output. So the output array after the region holds, at `(r, q)`, the decoder's row function of row
  `r` of the feature array as the region found it.
-/
import proofs.«120245_j26336739459481_1_alg».proof.Proof.Gen.KernelIdeal.Frame
import proofs.«120245_j26336739459481_1_alg».proof.Proof.Pay2
import Idealize.ShloMosaic.Lib.Pipeline.Value

noncomputable section

set_option maxRecDepth 16384

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffer contents when the region is entered: a parameter
variable (V : (c : Dev nD) → (b : Ref sig .tc) → Buf (Elt Ideal) ((c : Thread nD τ).loc b))

/-- The zero offsets of a whole-buffer access, as the constant function. -/
theorem zero_offsets2 : (![0, 0] : Fin 2 → Nat) = fun _ => 0 := funext fun a => by fin_cases a <;> rfl

/-- The block index maps over the grid: the feature and output windows sit at row block `t`, every weight and bias window at
    block `(0, 0)`. -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The decoder's whole output array as a function of the entry arrays: entry `(r, q)` is the decoder's row function of row
    `r` of the feature array. -/
abbrev decOut2 (c : Dev nD) : S50000x10.Idx → EReal := fun i : S50000x10.Idx => Cert.Spec.decRow
      (fun k => (V c main_v36 : S50000x256.Idx → EReal) (ix2 (i 0 : Fin 50000) k))
      (fun k q => (V c main_v37 : S256x128.Idx → EReal) (ix2 k q)) (fun q => (V c main_v40 : S1x128.Idx → EReal) (ix2 (0 : Fin 1) q))
      (fun k q => (V c main_v38 : S128x64.Idx → EReal) (ix2 k q)) (fun q => (V c main_v41 : S1x64.Idx → EReal) (ix2 (0 : Fin 1) q))
      (fun k q => (V c main_v39 : S64x10.Idx → EReal) (ix2 k q)) (fun q => (V c main_v42 : S1x10.Idx → EReal) (ix2 (0 : Fin 1) q))
      (i 1 : Fin 10)

/-- Row `p` of the feature block at point `t` is row `2000·t + p` of the feature array. -/
theorem feat_blk2 (c : Dev nD) (t : Fin cfg2.N) (p : Fin 2000) (k : Fin 256) (r : Fin 50000) (hr : r.val = 2000 * t.val + p.val) :
    (iblk2 (F := Ideal) V c 0 t : Vec Ideal S2000x256 .f32) (ix2 p k) = (V c main_v36 : S50000x256.Idx → EReal) (ix2 r k) := by
  obtain ⟨e0, e1, -⟩ := index_maps2 t
  unfold iblk2
  rw [View.read_apply]
  show V c main_v36 (((cfg2.win 0).blk t).view.emb (ix2 p k)) = V c main_v36 (ix2 r k)
  refine congrArg (V c main_v36) ?_
  funext a; apply Fin.ext
  match a with
  | ⟨0, _⟩ => show win2_0.index t (0 : Fin 2) * 2000 + 1 * p.val = r.val; omega
  | ⟨1, _⟩ => show win2_0.index t (1 : Fin 2) * 256 + 1 * k.val = k.val; omega

/-- The first weight window's block at any point is the whole first weight array. -/
theorem w1_blk2 (c : Dev nD) (t : Fin cfg2.N) (k : Fin 256) (q : Fin 128) :
    (iblk2 (F := Ideal) V c 1 t : Vec Ideal S256x128 .f32) (ix2 k q) = (V c main_v37 : S256x128.Idx → EReal) (ix2 k q) := by
  obtain ⟨-, -, e0, e1, -⟩ := index_maps2 t
  unfold iblk2
  rw [View.read_apply]
  show V c main_v37 (((cfg2.win 1).blk t).view.emb (ix2 k q)) = V c main_v37 (ix2 k q)
  refine congrArg (V c main_v37) ?_
  funext a; apply Fin.ext
  match a with
  | ⟨0, _⟩ => show win2_1.index t (0 : Fin 2) * 256 + 1 * k.val = k.val; omega
  | ⟨1, _⟩ => show win2_1.index t (1 : Fin 2) * 128 + 1 * q.val = q.val; omega

/-- The first bias window's block at any point is the whole first bias array. -/
theorem b1_blk2 (c : Dev nD) (t : Fin cfg2.N) (k : Fin 1) (q : Fin 128) :
    (iblk2 (F := Ideal) V c 2 t : Vec Ideal S1x128 .f32) (ix2 k q) = (V c main_v40 : S1x128.Idx → EReal) (ix2 k q) := by
  obtain ⟨-, -, -, -, e0, e1, -⟩ := index_maps2 t
  unfold iblk2
  rw [View.read_apply]
  show V c main_v40 (((cfg2.win 2).blk t).view.emb (ix2 k q)) = V c main_v40 (ix2 k q)
  refine congrArg (V c main_v40) ?_
  funext a; apply Fin.ext
  match a with
  | ⟨0, _⟩ => show win2_2.index t (0 : Fin 2) * 1 + 1 * k.val = k.val; omega
  | ⟨1, _⟩ => show win2_2.index t (1 : Fin 2) * 128 + 1 * q.val = q.val; omega

/-- The second weight window's block at any point is the whole second weight array. -/
theorem w2_blk2 (c : Dev nD) (t : Fin cfg2.N) (k : Fin 128) (q : Fin 64) :
    (iblk2 (F := Ideal) V c 3 t : Vec Ideal S128x64 .f32) (ix2 k q) = (V c main_v38 : S128x64.Idx → EReal) (ix2 k q) := by
  obtain ⟨-, -, -, -, -, -, e0, e1, -⟩ := index_maps2 t
  unfold iblk2
  rw [View.read_apply]
  show V c main_v38 (((cfg2.win 3).blk t).view.emb (ix2 k q)) = V c main_v38 (ix2 k q)
  refine congrArg (V c main_v38) ?_
  funext a; apply Fin.ext
  match a with
  | ⟨0, _⟩ => show win2_3.index t (0 : Fin 2) * 128 + 1 * k.val = k.val; omega
  | ⟨1, _⟩ => show win2_3.index t (1 : Fin 2) * 64 + 1 * q.val = q.val; omega

/-- The second bias window's block at any point is the whole second bias array. -/
theorem b2_blk2 (c : Dev nD) (t : Fin cfg2.N) (k : Fin 1) (q : Fin 64) :
    (iblk2 (F := Ideal) V c 4 t : Vec Ideal S1x64 .f32) (ix2 k q) = (V c main_v41 : S1x64.Idx → EReal) (ix2 k q) := by
  obtain ⟨-, -, -, -, -, -, -, -, e0, e1, -⟩ := index_maps2 t
  unfold iblk2
  rw [View.read_apply]
  show V c main_v41 (((cfg2.win 4).blk t).view.emb (ix2 k q)) = V c main_v41 (ix2 k q)
  refine congrArg (V c main_v41) ?_
  funext a; apply Fin.ext
  match a with
  | ⟨0, _⟩ => show win2_4.index t (0 : Fin 2) * 1 + 1 * k.val = k.val; omega
  | ⟨1, _⟩ => show win2_4.index t (1 : Fin 2) * 64 + 1 * q.val = q.val; omega

/-- The third weight window's block at any point is the whole third weight array. -/
theorem w3_blk2 (c : Dev nD) (t : Fin cfg2.N) (k : Fin 64) (q : Fin 10) :
    (iblk2 (F := Ideal) V c 5 t : Vec Ideal S64x10 .f32) (ix2 k q) = (V c main_v39 : S64x10.Idx → EReal) (ix2 k q) := by
  obtain ⟨-, -, -, -, -, -, -, -, -, -, e0, e1, -⟩ := index_maps2 t
  unfold iblk2
  rw [View.read_apply]
  show V c main_v39 (((cfg2.win 5).blk t).view.emb (ix2 k q)) = V c main_v39 (ix2 k q)
  refine congrArg (V c main_v39) ?_
  funext a; apply Fin.ext
  match a with
  | ⟨0, _⟩ => show win2_5.index t (0 : Fin 2) * 64 + 1 * k.val = k.val; omega
  | ⟨1, _⟩ => show win2_5.index t (1 : Fin 2) * 10 + 1 * q.val = q.val; omega

/-- The third bias window's block at any point is the whole third bias array. -/
theorem b3_blk2 (c : Dev nD) (t : Fin cfg2.N) (k : Fin 1) (q : Fin 10) :
    (iblk2 (F := Ideal) V c 6 t : Vec Ideal S1x10 .f32) (ix2 k q) = (V c main_v42 : S1x10.Idx → EReal) (ix2 k q) := by
  obtain ⟨-, -, -, -, -, -, -, -, -, -, -, -, e0, e1, -⟩ := index_maps2 t
  unfold iblk2
  rw [View.read_apply]
  show V c main_v42 (((cfg2.win 6).blk t).view.emb (ix2 k q)) = V c main_v42 (ix2 k q)
  refine congrArg (V c main_v42) ?_
  funext a; apply Fin.ext
  match a with
  | ⟨0, _⟩ => show win2_6.index t (0 : Fin 2) * 1 + 1 * k.val = k.val; omega
  | ⟨1, _⟩ => show win2_6.index t (1 : Fin 2) * 10 + 1 * q.val = q.val; omega

/-- Entry `(p, q)` of the output block at point `t` sits at `(2000·t + p, q)` in the output array. -/
theorem out_emb2 (t : Fin cfg2.N) (p : Fin 2000) (q : Fin 10) (r : Fin 50000) (hr : r.val = 2000 * t.val + p.val) :
    ((cfg2.win 7).blk t).view.emb (ix2 p q) = (ix2 r q : S50000x10.Idx) := by
  obtain ⟨-, -, -, -, -, -, -, -, -, -, -, -, -, -, e0, e1⟩ := index_maps2 t
  funext a; apply Fin.ext
  match a with
  | ⟨0, _⟩ => show win2_7.index t (0 : Fin 2) * 2000 + 1 * p.val = r.val; omega
  | ⟨1, _⟩ => show win2_7.index t (1 : Fin 2) * 10 + 1 * q.val = q.val; omega

/-- What point `t` writes back is block `t` of the decoder's output array. -/
theorem flushed2_eq (c : Dev nD) (t : Fin cfg2.N) :
    (dat2 (F := Ideal) V c).flushed 7 t = ((cfg2.win 7).blk t).view.read (Elt Ideal) (decOut2 V c) := by
  show (cfg2.win 7).cut (grid2.coords t) ((dat2 (F := Ideal) V c).after 7 t) = _
  rw [after2_7]
  unfold out2_7
  rw [View.canon_unit_zero zero_offsets2]
  simp only [View.ld_unit_zero (S := S2000x256) zero_offsets2, View.ld_unit_zero (S := S256x128) zero_offsets2,
    View.ld_unit_zero (S := S1x128) zero_offsets2, View.ld_unit_zero (S := S128x64) zero_offsets2,
    View.ld_unit_zero (S := S1x64) zero_offsets2, View.ld_unit_zero (S := S64x10) zero_offsets2,
    View.ld_unit_zero (S := S1x10) zero_offsets2]
  funext j
  obtain ⟨p, q, rfl⟩ : ∃ (p : Fin 2000) (q : Fin 10), j = ix2 p q := ⟨j 0, j 1, eq_ix2 j⟩
  have hN : grid2.N = 25 := N_2
  have ht : t.val < 25 := hN ▸ t.isLt
  obtain ⟨r, hr⟩ : ∃ r : Fin 50000, r.val = 2000 * t.val + p.val := ⟨⟨2000 * t.val + p.val, by omega⟩, rfl⟩
  refine (Pay.pay2_apply (iblk2 (F := Ideal) V c 0 t) (iblk2 (F := Ideal) V c 1 t) (iblk2 (F := Ideal) V c 2 t)
    (iblk2 (F := Ideal) V c 3 t) (iblk2 (F := Ideal) V c 4 t) (iblk2 (F := Ideal) V c 5 t) (iblk2 (F := Ideal) V c 6 t) p q).trans ?_
  rw [View.read_apply]
  show _ = decOut2 V c (((cfg2.win 7).blk t).view.emb (ix2 p q))
  rw [out_emb2 t p q r hr]
  exact Cert.Spec.decRow_congr (funext fun k => feat_blk2 V c t p k r hr)
    (funext fun k => funext fun q' => w1_blk2 V c t k q') (funext fun q' => b1_blk2 V c t 0 q')
    (funext fun k => funext fun q' => w2_blk2 V c t k q') (funext fun q' => b2_blk2 V c t 0 q')
    (funext fun k => funext fun q' => w3_blk2 V c t k q') (funext fun q' => b3_blk2 V c t 0 q') q

/-- An index of the output array is in point `t`'s block iff each coordinate is in the block's range on its axis. -/
theorem mem_blk2 (t : Fin cfg2.N) (i : S50000x10.Idx) :
    i ∈ ((cfg2.win 7).blk t).view.set ↔ ∀ a : Fin 2, win2_7.index t a * S2000x10.size a ≤ (i a).val ∧ (i a).val < win2_7.index t a * S2000x10.size a + S2000x10.size a := by
  show i ∈ ((View.whole main_v43).slice (win2_7.rect t)).set ↔ _
  rw [View.set_slice_whole, Rect.mem_set_unit]
  exact Iff.rfl

/-- Every entry `(r, q)` of the output array is in the block of the point `r / 2000`, which writes its block back. -/
theorem cover2 (i : S50000x10.Idx) :
    ∃ t : Fin cfg2.N, (cfg2.win 7).flush t = true ∧ i ∈ ((cfg2.win 7).blk t).view.set := by
  have hN : grid2.N = 25 := N_2
  have hi0 : (i 0).val < 50000 := (i 0).isLt
  have hi1 : (i 1).val < 10 := (i 1).isLt
  obtain ⟨t, ht⟩ : ∃ t : Fin cfg2.N, t.val = (i 0).val / 2000 :=
    ⟨⟨(i 0).val / 2000, by show (i 0).val / 2000 < grid2.N; omega⟩, rfl⟩
  obtain ⟨-, -, -, -, -, -, -, -, -, -, -, -, -, -, e0, e1⟩ := index_maps2 t
  refine ⟨t, flush2_7 t, ?_⟩
  rw [mem_blk2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 10 ≤ (i 1).val ∧ (i 1).val < win2_7.index t (1 : Fin 2) * 10 + 10; omega

/-- The decoder's output array after the region. -/
theorem final2 (c : Dev nD) :
    (dat2 (F := Ideal) V c).arrAt 7 cfg2.N = fun i : S50000x10.Idx => Cert.Spec.decRow
      (fun k => (V c main_v36 : S50000x256.Idx → EReal) (ix2 (i 0 : Fin 50000) k))
      (fun k q => (V c main_v37 : S256x128.Idx → EReal) (ix2 k q)) (fun q => (V c main_v40 : S1x128.Idx → EReal) (ix2 (0 : Fin 1) q))
      (fun k q => (V c main_v38 : S128x64.Idx → EReal) (ix2 k q)) (fun q => (V c main_v41 : S1x64.Idx → EReal) (ix2 (0 : Fin 1) q))
      (fun k q => (V c main_v39 : S64x10.Idx → EReal) (ix2 k q)) (fun q => (V c main_v42 : S1x10.Idx → EReal) (ix2 (0 : Fin 1) q))
      (i 1 : Fin 10) :=
  (dat2 (F := Ideal) V c).arrAt_eq_of_cover 7 (decOut2 V c) (fun t _ => flushed2_eq V c t) (cover2)

end Cert.KernelIdeal.Reg

end
-- ==== Proof.LibColumnCast.lean ====
/-
  A vector made a column: an `[a]` array cast to `[a, 1]` read at an index. The companion of the library's row form (an
  `[a]` array cast to `[1, a]`): there the unit axis is added in front, here behind.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.KVal.lean ====
/-
  The kernel program's two results as the network's stage functions of the launch arguments. Each region's output array
  is its row function of the arrays the region found (one module per region); what it found is the host's
  re-arrangement of the arguments (transposed weights, bias and degree as a row and a column), so read at an index the
  re-arrangements cancel against the stage functions' own reading of weights `W[q, k]`, bias `b[q]` and degree `cnt[r]`.
-/
import proofs.«120245_j26336739459481_1_alg».proof.Proof.KEntry
import proofs.«120245_j26336739459481_1_alg».proof.Proof.Reg0
import proofs.«120245_j26336739459481_1_alg».proof.Proof.Reg1
import proofs.«120245_j26336739459481_1_alg».proof.Proof.Reg2
import proofs.«120245_j26336739459481_1_alg».proof.Proof.LibColumnCast
import Idealize.ShloMosaic.Lib.ValueLayout

noncomputable section

set_option maxRecDepth 16384

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The first layer's output as a function of the launch arguments. -/
def H1 (c : Dev nD) : S50000x256.Idx → EReal :=
  Cert.Spec.sageOf 128 (Cert.ReferenceIdeal.Read.val_main_v13 (F := Ideal) (m ((c : Thread nD τ).loc main_arg0)) (m ((c : Thread nD τ).loc main_arg1)))
    (Cert.ReferenceIdeal.Read.val_main_v17 (F := Ideal) (m ((c : Thread nD τ).loc main_arg1))) (m ((c : Thread nD τ).loc main_arg0)) (m ((c : Thread nD τ).loc main_arg2)) (m ((c : Thread nD τ).loc main_arg4)) (m ((c : Thread nD τ).loc main_arg3))

/-- The second layer's output. -/
def H2 (c : Dev nD) : S50000x256.Idx → EReal :=
  Cert.Spec.sageOf 256 (Cert.ReferenceIdeal.RefValue.agg2 (F := Ideal) (H1 m c) (m ((c : Thread nD τ).loc main_arg1)))
    (Cert.ReferenceIdeal.Read.val_main_v17 (F := Ideal) (m ((c : Thread nD τ).loc main_arg1))) (H1 m c) (m ((c : Thread nD τ).loc main_arg5)) (m ((c : Thread nD τ).loc main_arg7)) (m ((c : Thread nD τ).loc main_arg6))

/-- The decoder's output. -/
def Q (c : Dev nD) : S50000x10.Idx → EReal :=
  Cert.Spec.decOf (H2 m c) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The first region's output array is the first layer's output. -/
theorem h1_eq (c : Dev nD) : (dat0 (F := Ideal) (V1 m ρ) c).arrAt 6 cfg0.N = H1 m c := by
  rw [Reg.final0 (V1 m ρ) c]
  funext i
  rw [Entry.e0_agg m ρ c, Entry.e0_cnt m ρ c, Entry.e0_x m ρ c, Entry.e0_wl m ρ c, Entry.e0_wr m ρ c, Entry.e0_b m ρ c,
    Terms.agg1_eq, Terms.cnt_eq]
  unfold H1 Cert.Spec.sageOf
  refine Cert.Spec.sageRow_congr rfl ?_ rfl ?_ ?_ ?_ _
  · exact shapeCast_a_a1_apply _ _ _ _
  · funext k q; exact transpose_ix2_apply _ _ _ _
  · funext k q; exact transpose_ix2_apply _ _ _ _
  · funext q; exact shapeCast_a_1a_apply _ _ _ _

/-- The second region's output array is the second layer's output. -/
theorem h2_eq (c : Dev nD) : (dat1 (F := Ideal) (V3 m ρ) c).arrAt 6 cfg1.N = H2 m c := by
  rw [Reg.final1 (V3 m ρ) c]
  funext i
  rw [Entry.e1_agg m ρ c, Entry.e1_cnt m ρ c, Entry.e1_x m ρ c, Entry.e1_wl m ρ c, Entry.e1_wr m ρ c, Entry.e1_b m ρ c, h1_eq m ρ c,
    Terms.agg2_eq, Terms.cnt_eq]
  unfold H2 Cert.Spec.sageOf
  refine Cert.Spec.sageRow_congr rfl ?_ rfl ?_ ?_ ?_ _
  · exact shapeCast_a_a1_apply _ _ _ _
  · funext k q; exact transpose_ix2_apply _ _ _ _
  · funext k q; exact transpose_ix2_apply _ _ _ _
  · funext q; exact shapeCast_a_1a_apply _ _ _ _

/-- The decoder region's output array is the decoder's output. -/
theorem q_eq (c : Dev nD) : (dat2 (F := Ideal) (V5 m ρ) c).arrAt 7 cfg2.N = Q m c := by
  rw [Reg.final2 (V5 m ρ) c]
  funext i
  rw [Entry.e2_h m ρ c, Entry.e2_w1 m ρ c, Entry.e2_w2 m ρ c, Entry.e2_w3 m ρ c, Entry.e2_b1 m ρ c, Entry.e2_b2 m ρ c,
    Entry.e2_b3 m ρ c, h2_eq m ρ c]
  unfold Q Cert.Spec.decOf
  refine Cert.Spec.decRow_congr rfl ?_ ?_ ?_ ?_ ?_ ?_ _
  · funext k q; exact transpose_ix2_apply _ _ _ _
  · funext q; exact shapeCast_a_1a_apply _ _ _ _
  · funext k q; exact transpose_ix2_apply _ _ _ _
  · funext q; exact shapeCast_a_1a_apply _ _ _ _
  · funext k q; exact transpose_ix2_apply _ _ _ _
  · funext q; exact shapeCast_a_1a_apply _ _ _ _

/-- The two results at the last boundary. -/
theorem out_q (c : Dev nD) : W6 m ρ c (Proc.devRef .tc main_v43) = Q m c := (Entry.w6_q m ρ c).trans (q_eq m ρ c)
theorem out_h2 (c : Dev nD) : W6 m ρ c (Proc.devRef .tc main_v36) = H2 m c := (Entry.w6_h2 m ρ c).trans (h2_eq m ρ c)

end Cert.KernelIdeal.KVal

end
-- ==== Proof.lean ====
/-
  The kernel program (two fused graph-convolution kernels and one fused decoder kernel among host gathers, scatter-adds,
  transposes and reshapes) computes, on the extended reals, the same two arrays as the reference network.

  Both programs aggregate with the same host operations, so the aggregated features and the degree count are carried
  as the same terms on both sides and never opened. What remains is row-wise: each kernel region writes, at `(r, q)`,
  its stage's row function of row `r` of the arrays it found, and each stage of the reference is the same row function
  (the bias added before the second product instead of after it: addition of extended reals is commutative and
  associative, and no finiteness is needed). The frames of the two kernel programs are their generated runs; the
  reference's frame is its generated run with the results dropped.
-/
import proofs.«120245_j26336739459481_1_alg».proof.Defs
import proofs.«120245_j26336739459481_1_alg».proof.Proof.Gen.Kernel
import proofs.«120245_j26336739459481_1_alg».proof.Proof.Gen.Kernel.Skeleton
import proofs.«120245_j26336739459481_1_alg».proof.Proof.Gen.Kernel.Launch
import proofs.«120245_j26336739459481_1_alg».proof.Proof.Gen.Kernel.Points
import proofs.«120245_j26336739459481_1_alg».proof.Proof.Gen.Kernel.Frame
import proofs.«120245_j26336739459481_1_alg».proof.Proof.Gen.KernelIdeal
import proofs.«120245_j26336739459481_1_alg».proof.Proof.Gen.KernelIdeal.Skeleton
import proofs.«120245_j26336739459481_1_alg».proof.Proof.Gen.KernelIdeal.Launch
import proofs.«120245_j26336739459481_1_alg».proof.Proof.Gen.KernelIdeal.Points
import proofs.«120245_j26336739459481_1_alg».proof.Proof.Gen.KernelIdeal.Frame
import proofs.«120245_j26336739459481_1_alg».proof.Proof.Gen.ReferenceIdeal
import proofs.«120245_j26336739459481_1_alg».proof.Proof.Gen.ReferenceIdeal.Run
import proofs.«120245_j26336739459481_1_alg».proof.Proof.Gen.ReferenceIdeal.Read
import proofs.«120245_j26336739459481_1_alg».proof.Proof.Gen.Pre_finite_inputs
import proofs.«120245_j26336739459481_1_alg».proof.Proof.KRun
import proofs.«120245_j26336739459481_1_alg».proof.Proof.KVal
import proofs.«120245_j26336739459481_1_alg».proof.Proof.RefVal
import Idealize.ShloMosaic.Adequacy
import Idealize.ShloMosaic.Init

noncomputable section

namespace Cert.Proof

open Idealize.ShloMosaic Idealize.SL.Sem

/-- The word-level kernel program runs and leaves its arguments: its generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments: its generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments: its generated run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the arguments both programs end with the decoder's output and the second layer's
    output as the same functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KVal.Q m c, fun c => Cert.KernelIdeal.KVal.H2 m c, ?_, ?_⟩
  · exact (θ_run Cert.KernelIdeal.defs _ _).mono
      (fun r h c => ⟨(h c).1.trans (Cert.KernelIdeal.KVal.out_q m ρ c), (h c).2.1.trans (Cert.KernelIdeal.KVal.out_h2 m ρ c), (h c).2.2⟩)
      (Cert.KernelIdeal.GenRun.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13⟩ := hagree c
      rw [Cert.ReferenceIdeal.Read.val_main_v76_eq, Cert.ReferenceIdeal.RefValue.q_eq, Cert.ReferenceIdeal.RefValue.h2_eq,
        Cert.ReferenceIdeal.RefValue.h1_eq, e0, e1, e2, e3, e4, e5, e6, e7, e8, e9, e10, e11, e12, e13]
      rfl
    · obtain ⟨e0, e1, e2, e3, e4, e5, e6, e7, -⟩ := hagree c
      rw [Cert.ReferenceIdeal.Read.val_main_v59_eq, Cert.ReferenceIdeal.RefValue.h2_eq,
        Cert.ReferenceIdeal.RefValue.h1_eq, e0, e1, e2, e3, e4, e5, e6, e7]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
